-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S512x512 : Shape := ⟨2, ![512, 512]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S2x4096x512 .f32) (main_arg1 : FVec F S512x512 .f32) (main_arg2 : FVec F S512 .f32) (main_arg3 : FVec F S512x512 .f32) (main_arg4 : FVec F S512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S2x4096x512 : Shape := ⟨3, ![2, 4096, 512]⟩
abbrev S512x512 : Shape := ⟨2, ![512, 512]⟩
abbrev S512 : Shape := ⟨1, ![512]⟩
abbrev S8192x512 : Shape := ⟨2, ![8192, 512]⟩
abbrev S1x512 : Shape := ⟨2, ![1, 512]⟩
abbrev S1024x512 : Shape := ⟨2, ![1024, 512]⟩
abbrev S1x256x128 : Shape := ⟨3, ![1, 256, 128]⟩
abbrev S1x4096x128 : Shape := ⟨3, ![1, 4096, 128]⟩
abbrev S256x128 : Shape := ⟨2, ![256, 128]⟩
abbrev S4096x128 : Shape := ⟨2, ![4096, 128]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S2x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S8192x512, .f32⟩
  | .hbm, ⟨6, _⟩ => ⟨S1x512, .f32⟩
  | .hbm, ⟨7, _⟩ => ⟨S1x512, .f32⟩
  | .hbm, ⟨8, _⟩ => ⟨S8192x512, .bf16⟩
  | .hbm, ⟨9, _⟩ => ⟨S8192x512, .bf16⟩
  | .hbm, ⟨10, _⟩ => ⟨S2x4096x512, .bf16⟩
  | .hbm, ⟨11, _⟩ => ⟨S2x4096x512, .bf16⟩
  | .hbm, ⟨12, _⟩ => ⟨S2x4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x256x128, .bf16⟩
  | .local _ .vmem, ⟨11, _⟩ => ⟨S1x256x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x256x128, .f32⟩
  | .local _ .vmem, ⟨15, _⟩ => ⟨S1x256x128, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![2, 4, 16], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S2x4096x512_S8192x512 : S2x4096x512.ShapeCasts S8192x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S8192x512_S2x4096x512 : S8192x512.ShapeCasts S2x4096x512
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  slices_S256x128_o0_0_S256x64 : S256x128.Slices ![0, 0] S256x64
  slices_S4096x128_o0_0_S4096x64 : S4096x128.Slices ![0, 0] S4096x64
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  slices_S256x128_o0_64_S256x64 : S256x128.Slices ![0, 64] S256x64
  slices_S4096x128_o0_64_S4096x64 : S4096x128.Slices ![0, 64] S4096x64
  concatenates_S256x64_S256x64_S256x128_d1 : Shape.Concatenates [S256x64, S256x64] S256x128 1
  shapeCasts_S256x128_S1x256x128 : S256x128.ShapeCasts S1x256x128
  dot_S1024x512_S512x512_S1024x512_1_1_0_0_n_n_wf : DotDims.WF S1024x512 S512x512 S1024x512 [1] [1] [0] [0] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .bf16 = 32 ∨ (Rect.block (s := S8192x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S2x4096x512.size a
  hwx1_0 : ∀ i : grid1.Coords, EltTy.bits .bf16 = 32 ∨ (Rect.block (s := S2x4096x512) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S2x4096x512.size a
  hwx1_1 : ∀ i : grid1.Coords, EltTy.bits .bf16 = 32 ∨ (Rect.block (s := S2x4096x512) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S2x4096x512.size a
  hwx1_2 : ∀ i : grid1.Coords, EltTy.bits .f32 = 32 ∨ (Rect.block (s := S2x4096x512) S1x256x128.size (cc1_transform_2 i) (hinb1_2 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x4096x512 : Shape := ⟨3, ![2, 4096, 512]⟩
abbrev S512x512 : Shape := ⟨2, ![512, 512]⟩
abbrev S512 : Shape := ⟨1, ![512]⟩
abbrev S1x1x512 : Shape := ⟨3, ![1, 1, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S2x4096x512, .f32⟩
  | .hbm, ⟨6, _⟩ => ⟨S1x1x512, .f32⟩
  | .hbm, ⟨7, _⟩ => ⟨S2x4096x512, .f32⟩
  | .hbm, ⟨8, _⟩ => ⟨S2x4096x512, .f32⟩
  | .hbm, ⟨9, _⟩ => ⟨S2x4096x8x64, .f32⟩
  | .hbm, ⟨10, _⟩ => ⟨S2x8x4096x64, .f32⟩
  | .hbm, ⟨11, _⟩ => ⟨S2x4096x512, .f32⟩
  | .hbm, ⟨12, _⟩ => ⟨S1x1x512, .f32⟩
  | .hbm, ⟨13, _⟩ => ⟨S2x4096x512, .f32⟩
  | .hbm, ⟨14, _⟩ => ⟨S2x4096x512, .f32⟩
  | .hbm, ⟨15, _⟩ => ⟨S2x4096x8x64, .f32⟩
  | .hbm, ⟨16, _⟩ => ⟨S2x8x4096x64, .f32⟩
  | .hbm, ⟨17, _⟩ => ⟨S2x8x4096x4096, .f32⟩
  | .hbm, ⟨18, _⟩ => ⟨S_, .f32⟩
  | .hbm, ⟨19, _⟩ => ⟨S2x8x4096x4096, .f32⟩
  | .hbm, ⟨20, _⟩ => ⟨S2x8x4096x4096, .f32⟩
  | .hbm, ⟨21, _⟩ => ⟨S_, .f32⟩
  | .hbm, ⟨22, _⟩ => ⟨S2x8x4096, .f32⟩
  | .hbm, ⟨23, _⟩ => ⟨S_, .f32⟩
  | .hbm, ⟨24, _⟩ => ⟨S2x8x4096, .f32⟩
  | .hbm, ⟨25, _⟩ => ⟨S2x8x4096, .f32⟩
  | .hbm, ⟨26, _⟩ => ⟨S2x8x4096x1, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x4096x64, .f32⟩
  | .hbm, ⟨36, _⟩ => ⟨S2x4096x8x64, .f32⟩
  | .hbm, ⟨37, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  shapeCasts_S2x4096x512_S2x4096x8x64 : S2x4096x512.ShapeCasts S2x4096x8x64
  transposes_S2x4096x8x64_S2x8x4096x64_0_2_1_3 : S2x4096x8x64.Transposes [0, 2, 1, 3] S2x8x4096x64
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x8x4096x64_S2x4096x8x64_0_2_1_3 : S2x8x4096x64.Transposes [0, 2, 1, 3] S2x4096x8x64
  shapeCasts_S2x4096x8x64_S2x4096x512 : S2x4096x8x64.ShapeCasts S2x4096x512
  dot_S2x4096x512_S512x512_S2x4096x512_2_1_01_0_n_n_wf : DotDims.WF S2x4096x512 S512x512 S2x4096x512 [2] [1] [0, 1] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x4096x512_S512x512_S2x4096x512_2_1_01_0_n_n : DotDims S2x4096x512 S512x512 S2x4096x512 where
  lhsContracting := [2]
  rhsContracting := [1]
  lhsNonContracting := [0, 1]
  rhsNonContracting := [0]
  lhsBatch := []
  rhsBatch := []
  wf := dot_S2x4096x512_S512x512_S2x4096x512_2_1_01_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.AttentionSpec.lean ====
/-
  The mathematics both programs compute, index by index, on the extended reals.

  Inputs: activations `x : [2, 4096, 512]`, two weight matrices `W : [512, 512]` (rows are output features) and two bias
  vectors `[512]`. A linear layer is `proj x W β (b, n, c) = (∑ d, x (b, n, d) · W (c, d)) + β c`; queries and keys are two
  such layers of the same `x`, and the values are the keys again. The 512 features are eight heads of 64: feature
  `64 h + e` is feature `e` of head `h`.

  For one query row `qrow : Fin 64 → EReal` and one head's keys `K : Fin 4096 → Fin 64 → EReal`:
  the score of key `j` is `(∑ e, qrow e · K j e) · scale`, the row's maximum is the `max`-fold of the scores from `-∞`,
  the weight of key `j` is `exp (score j - maximum)`, and the denominator is the sum of the weights. The two programs then
  differ only in where they divide by the denominator:
    * `rowOutK`: the weighted sum of the keys' feature `e`, divided once   — `(∑ j, w j · K j e) / (∑ j, w j)`;
    * `rowOutR`: every weight divided first, then the weighted sum          — `∑ j, (w j / ∑ w) · K j e`.
  They agree whenever every entry is a real number (the denominator is then a positive real), which is the law the bridge
  between the two programs rests on; it is proved in the module on real-valued rows.

  The scale and the `-∞` the maximum starts from are the programs' own literals, kept as bit patterns: the same word on
  both sides is never evaluated.
-/
import Idealize.ShloMosaic.PureOps.Ideal
import Idealize.ShloMosaic.Lib.ValueIdx

noncomputable section

namespace Cert.Attention

open Idealize.ShloMosaic Idealize.ShloMosaic.ValueIdx

/-- Arrays as the programs hold them at the ideal values: functions of an index into a literal shape. -/
abbrev Act := (⟨3, ![2, 4096, 512]⟩ : Shape).Idx → EReal
abbrev Wgt := (⟨2, ![512, 512]⟩ : Shape).Idx → EReal
abbrev Bias := (⟨1, ![512]⟩ : Shape).Idx → EReal

/-- An activation-shaped array by coordinates (batch, position, feature). -/
abbrev Coords := Fin 2 → Fin 4096 → Fin 512 → EReal

/-- An extended real that is a real number (neither infinity). -/
def IsReal (x : EReal) : Prop := ∃ r : ℝ, x = (r : EReal)

/-- The scores' scale, `512 ^ (-1/2)` rounded to f32, as both programs print it. -/
def scale : EReal := Ideal.ofBits .f32 0x3D3504F3#32
/-- The value a row's maximum starts from: the f32 pattern of `-∞`. -/
def negInf : EReal := Ideal.ofBits .f32 0xFF800000#32

/-- A linear layer at (b, n, c): row (b, n) of `x` against row `c` of `W`, plus the bias. -/
def proj (x : Act) (W : Wgt) (β : Bias) : Coords :=
  fun b n c => (∑ d : Fin 512, x (ix3 b n d) * W (ix2 c d)) + β (ix1 c)

/-- Feature `e` of head `h` among the 512. -/
def hcol (h : Fin 8) (e : Fin 64) : Fin 512 := ⟨64 * h.val + e.val, by omega⟩
/-- The head a feature belongs to, and its place inside the head. -/
def hd (c : Fin 512) : Fin 8 := ⟨c.val / 64, by omega⟩
def ft (c : Fin 512) : Fin 64 := ⟨c.val % 64, by omega⟩

theorem hcol_hd_ft (c : Fin 512) : hcol (hd c) (ft c) = c := Fin.ext (by simp only [hcol, hd, ft]; omega)

/-! ## One query row against one head's keys -/

section Row
variable (qrow : Fin 64 → EReal) (K : Fin 4096 → Fin 64 → EReal)

def rowScore (j : Fin 4096) : EReal := (∑ e : Fin 64, qrow e * K j e) * scale
def rowMax : EReal := (Finset.univ : Finset (Fin 4096)).fold max negInf (rowScore qrow K)
def rowWgt (j : Fin 4096) : EReal := Ideal.exp (rowScore qrow K j - rowMax qrow K)
def rowDen : EReal := ∑ j : Fin 4096, rowWgt qrow K j
/-- The weighted sum of the keys, divided by the denominator once. -/
def rowOutK (e : Fin 64) : EReal := Ideal.div (∑ j : Fin 4096, rowWgt qrow K j * K j e) (rowDen qrow K)
/-- Every weight divided by the denominator, then the weighted sum of the keys. -/
def rowOutR (e : Fin 64) : EReal := ∑ j : Fin 4096, Ideal.div (rowWgt qrow K j) (rowDen qrow K) * K j e
end Row

/-! ## Attention over the arrays -/

/-- Head `h`'s 64 features of row (b, n) of an array given by coordinates. -/
def headRow (a : Coords) (b : Fin 2) (h : Fin 8) (n : Fin 4096) : Fin 64 → EReal := fun e => a b n (hcol h e)
/-- Head `h`'s keys of batch `b`: 4096 rows of 64 features. -/
def headKeys (a : Coords) (b : Fin 2) (h : Fin 8) : Fin 4096 → Fin 64 → EReal := fun j e => a b j (hcol h e)

/-- The result at (b, n, c), in the first form and in the second: the row attention of feature `c`'s head. -/
def outK (q k : Coords) : Coords := fun b n c => rowOutK (headRow q b (hd c) n) (headKeys k b (hd c)) (ft c)
def outR (q k : Coords) : Coords := fun b n c => rowOutR (headRow q b (hd c) n) (headKeys k b (hd c)) (ft c)

/-- An array from its coordinates. -/
def ofCoords (f : Coords) : Act := fun i => f (i 0) (i 1) (i 2)

theorem ofCoords_ix3 (f : Coords) (b : Fin 2) (n : Fin 4096) (c : Fin 512) : ofCoords f (ix3 b n c) = f b n c := rfl

/-- An array is `ofCoords f` when it is `f` at every coordinate triple. -/
theorem eq_ofCoords {u : Act} {f : Coords} (h : ∀ b n c, u (ix3 b n c) = f b n c) : u = ofCoords f :=
  funext fun i => by rw [eq_ix3 i]; exact h _ _ _

/-- The whole result array of the arguments, in each of the two forms. -/
def resultK (x : Act) (Wq : Wgt) (βq : Bias) (Wk : Wgt) (βk : Bias) : Act := ofCoords (outK (proj x Wq βq) (proj x Wk βk))
def resultR (x : Act) (Wq : Wgt) (βq : Bias) (Wk : Wgt) (βk : Bias) : Act := ofCoords (outR (proj x Wq βq) (proj x Wk βk))

end Cert.Attention

end
-- ==== Proof.AttentionLaw.lean ====
/-
  The law that joins the two programs: for a query row and a head's keys whose entries are all real numbers, dividing the
  weighted sum of the keys by the denominator once is the same as dividing every weight first,
  `(∑ j, w j · K j e) / (∑ j, w j) = ∑ j, (w j / ∑ w) · K j e`.
  Why it needs real entries: on the extended reals a product does not distribute over a sum that mixes `+∞` and `-∞`. With
  real entries every score is real, the row's maximum (a `max` over 4096 reals, from `-∞`) is real, every weight
  `exp (score - maximum)` is a positive real, so the denominator is a positive real and the identity is the real one.
  Also here: a linear layer of real arrays is real at every coordinate.
-/
import proofs.«408210_j8821862826069_3_alg».proof.Proof.AttentionSpec

noncomputable section

namespace Cert.Attention

open Idealize.ShloMosaic Idealize.ShloMosaic.ValueIdx

/-- A finite sum of real numbers, taken in the extended reals, is the real sum. -/
theorem coe_finsum {ι : Type*} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- Sums, products and finite sums of real numbers are real numbers. -/
theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (g : ι → EReal) (h : ∀ j, IsReal (g j)) : IsReal (∑ j ∈ s, g j) := by
  choose f hf using h
  obtain rfl : g = fun j => (f j : EReal) := funext hf
  exact ⟨_, coe_finsum s f⟩

theorem proj_isReal (x : Act) (W : Wgt) (β : Bias) (hx : ∀ i, IsReal (x i)) (hW : ∀ i, IsReal (W i)) (hβ : ∀ i, IsReal (β i))
    (b : Fin 2) (n : Fin 4096) (c : Fin 512) : IsReal (proj x W β b n c) := by
  show IsReal ((∑ d : Fin 512, x (ix3 b n d) * W (ix2 c d)) + β (ix1 c))
  exact (IsReal.sum _ _ (fun d => (hx _).mul (hW _))).add (hβ _)

/-- The scale's pattern has an exponent field that is neither all ones nor zero: a normal number, so a real. -/
theorem scale_isReal : IsReal scale := by
  unfold scale Ideal.ofBits Ideal.ieee
  simp only []
  rw [if_neg (by decide), if_neg (by decide)]
  exact ⟨_, rfl⟩

/-- The starting value of the maximum is `-∞`. -/
theorem negInf_eq_bot : negInf = ⊥ := by simp [negInf, Ideal.ofBits, Ideal.ieee]

/-- The maximum of finitely many reals from `-∞`, over a nonempty index set, is a real: after the first element the
    running maximum is the real maximum of two reals. -/
theorem fold_max_coe {ι : Type*} (f : ι → ℝ) (s : Finset ι) (hs : s.Nonempty) :
    ∃ r : ℝ, s.fold max (⊥ : EReal) (fun j => (f j : EReal)) = (r : EReal) := by
  classical
  induction s using Finset.induction_on with
  | empty => exact absurd hs (by simp)
  | insert a s ha ih =>
    rw [Finset.fold_insert ha]
    rcases s.eq_empty_or_nonempty with rfl | hne
    · exact ⟨f a, by simp⟩
    · obtain ⟨r, hr⟩ := ih hne
      exact ⟨max (f a) r, by rw [hr]; exact (EReal.coe_strictMono.monotone.map_max).symm⟩

section Row
variable (qrow : Fin 64 → EReal) (K : Fin 4096 → Fin 64 → EReal)

/-- A score is a finite sum of products of reals, times the real scale. -/
theorem rowScore_isReal (hq : ∀ e, IsReal (qrow e)) (hK : ∀ j e, IsReal (K j e)) (j : Fin 4096) :
    IsReal (rowScore qrow K j) :=
  (IsReal.sum _ _ (fun e => (hq e).mul (hK j e))).mul scale_isReal

/-- The row's maximum is real. -/
theorem rowMax_isReal (hs : ∀ j, IsReal (rowScore qrow K j)) : IsReal (rowMax qrow K) := by
  choose s hs using hs
  obtain ⟨r, hr⟩ := fold_max_coe s Finset.univ Finset.univ_nonempty
  refine ⟨r, ?_⟩
  unfold rowMax
  rw [negInf_eq_bot, show rowScore qrow K = fun j => (s j : EReal) from funext hs]
  exact hr

/-- Every weight is the exponential of a real difference: a positive real. -/
theorem rowWgt_pos (hs : ∀ j, IsReal (rowScore qrow K j)) (j : Fin 4096) :
    ∃ w : ℝ, 0 < w ∧ rowWgt qrow K j = (w : EReal) := by
  obtain ⟨m, hm⟩ := rowMax_isReal qrow K hs
  obtain ⟨a, ha⟩ := hs j
  refine ⟨Real.exp (a - m), Real.exp_pos _, ?_⟩
  unfold rowWgt
  rw [ha, hm, ← EReal.coe_sub, Ideal.exp_coe]

end Row

/-- With a positive real denominator `D`, both forms are the real `∑ j, w j · k j · (1 / D)`. -/
theorem rowOutK_eq_rowOutR (qrow : Fin 64 → EReal) (K : Fin 4096 → Fin 64 → EReal) (hq : ∀ e, IsReal (qrow e))
    (hK : ∀ j e, IsReal (K j e)) (e : Fin 64) : rowOutK qrow K e = rowOutR qrow K e := by
  have hs : ∀ j, IsReal (rowScore qrow K j) := rowScore_isReal qrow K hq hK
  choose w hwpos hw using rowWgt_pos qrow K hs
  choose k hk using hK
  have hDpos : (0 : ℝ) < ∑ j, w j := Finset.sum_pos (fun j _ => hwpos j) Finset.univ_nonempty
  have hD : rowDen qrow K = ((∑ j, w j : ℝ) : EReal) := by
    unfold rowDen
    simp only [hw]
    exact coe_finsum _ _
  unfold rowOutK rowOutR
  rw [hD]
  simp only [hw, hk, Ideal.div_coe hDpos.ne', ← EReal.coe_mul, coe_finsum]
  congr 1
  rw [Finset.sum_mul]
  exact Finset.sum_congr rfl (fun j _ => by ring)

theorem resultK_eq_resultR (x : Act) (Wq : Wgt) (βq : Bias) (Wk : Wgt) (βk : Bias) (hx : ∀ i, IsReal (x i))
    (hWq : ∀ i, IsReal (Wq i)) (hβq : ∀ i, IsReal (βq i)) (hWk : ∀ i, IsReal (Wk i)) (hβk : ∀ i, IsReal (βk i)) :
    resultK x Wq βq Wk βk = resultR x Wq βq Wk βk := by
  unfold resultK resultR
  refine congrArg ofCoords (funext fun b => funext fun n => funext fun c => ?_)
  exact rowOutK_eq_rowOutR _ _ (fun e => proj_isReal x Wq βq hx hWq hβq b n _) (fun j e => proj_isReal x Wk βk hx hWk hβk b j _) _

end Cert.Attention

end
-- ==== Proof.FiniteInputs.lean ====
/-
  What the precondition gives: when the printed predicate "every input's absolute value is below +∞" evaluates to true
  at the ideal values, every entry of each of the five arguments is a real number.
  The predicate is the conjunction of five tests of one shape: `and` over all entries of `|a| < +∞`. A conjunction that
  is true has every conjunct true; an `and` over all entries that is true has a true at every entry; and an extended
  real whose absolute value `max x (-x)` lies strictly below `+∞` is neither infinity.
-/
import proofs.«408210_j8821862826069_3_alg».proof.Pre_finite_inputs
import proofs.«408210_j8821862826069_3_alg».proof.Proof.Gen.Pre_finite_inputs
import proofs.«408210_j8821862826069_3_alg».proof.Proof.AttentionSpec
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Reals

open Cert.Pre_finite_inputs Idealize.ShloMosaic Idealize.ShloMosaic.ValueIdx Cert.Attention

/-- The rank-zero shape has one index. -/
instance : Subsingleton S_.Idx := ⟨fun a b => funext fun d => d.elim0⟩

/-- The f32 pattern of `+∞` is the top of the extended reals. -/
theorem posInf : Ideal.ofBits .f32 0x7F800000#32 = ⊤ := by simp [Ideal.ofBits, Ideal.ieee]

/-- An extended real whose absolute value is strictly below `+∞` is a real number. -/
theorem isReal_of_abs_lt_top (x : EReal) (h : max x (-x) < ⊤) : IsReal x := by
  induction x using EReal.rec with
  | bot => simp at h
  | coe r => exact ⟨r, rfl⟩
  | top => simp at h

/-- One test of the predicate: if `and` over all entries of `|a| < +∞` is true, every entry of `a` is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ix0 = 1#1) (i : s.Idx) : IsReal (a i) := by
  have hi := Host.reduce_andi_all _ _ hr hu ix0 e i
  refine isReal_of_abs_lt_top _ ?_
  have hlt : max (a i) (-(a i)) < Ideal.ofBits .f32 0x7F800000#32 := by
    by_contra hn
    have : Ideal.cmp .olt (max (a i) (-(a i))) (Ideal.ofBits .f32 0x7F800000#32) = 0#1 := by
      simp only [Ideal.cmp, decide_eq_false hn]; rfl
    exact absurd (this.symm.trans hi) (by decide)
  rwa [posInf] at hlt

variable [Cert.Pre_finite_inputs.Facts]
open Cert.Pre_finite_inputs.Facts

theorem isReal_of_pre (a0 : FVec Ideal S2x4096x512 .f32) (a1 : FVec Ideal S512x512 .f32) (a2 : FVec Ideal S512 .f32)
    (a3 : FVec Ideal S512x512 .f32) (a4 : FVec Ideal S512 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [fn, fn_part1] at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨all_real a0 _ _ _ e0, all_real a1 _ _ _ e1, all_real a2 _ _ _ e2, all_real a3 _ _ _ e3, all_real a4 _ _ _ e4⟩

end Cert.Pre_finite_inputs.Reals

end
-- ==== Proof.ProjectionRegion.lean ====
/-
  The first region of the idealized kernel (the fused query / key projection) as values: with the activations viewed as
  8192 rows of 512 and the grid's eight points each taking 1024 rows, the two output arrays end holding, at row `r` and
  feature `e`, `(∑ d, X (r, d) · W (e, d)) + B (0, e)` — the row of `X` against row `e` of the weight matrix, plus the
  one-row bias — for whatever contents the region is entered at.
-/
import proofs.«408210_j8821862826069_3_alg».proof.Proof.Gen.KernelIdeal.Frame
import proofs.«408210_j8821862826069_3_alg».proof.Proof.AttentionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjectionRegion

open Cert.KernelIdeal Cert.KernelIdeal.Gen Idealize.ShloMosaic Idealize.ShloMosaic.ValueIdx Idealize.ShloMosaic.TcCoe Idealize.SL.Sem
open Idealize.ShloMosaic.Pipeline (Dat)

/-- Rows of `X` against rows of `W`, plus the one-row bias `B`. -/
def rowsProj (X : S8192x512.Idx → EReal) (W : S512x512.Idx → EReal) (B : S1x512.Idx → EReal) : S8192x512.Idx → EReal :=
  fun i => (∑ d : Fin 512, X (ix2 (i 0) d) * W (ix2 (i 1) d)) + B (ix2 0 (i 1))

/-! ## The product of a block of rows with the weight rows, entry by entry -/

/-- The zero offsets of a whole-block access, as a constant function. -/
theorem zero_offsets : (![0, 0] : Fin 2 → Nat) = fun _ => 0 :=
  funext fun a => match a with | ⟨0, _⟩ => rfl | ⟨1, _⟩ => rfl

/-- The product's left operand is read at the result's row … -/
theorem lhs_axis0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
/-- … and at the summation index on its second axis; -/
theorem lhs_axis1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
/-- the right operand is read at the row the result's COLUMN names … -/
theorem rhs_axis0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
/-- … and at the summation index on ITS second axis too: both operands are contracted along their features. -/
theorem rhs_axis1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The product into the zero accumulator at row `p`, column `e`: row `p` of the left operand against row `e` of the right. -/
theorem product_at (A : FVec Ideal S1024x512 .bf16) (Wt : FVec Ideal S512x512 .bf16) (p : Fin 1024) (e : Fin 512) :
    matmul dot_S1024x512_S512x512_S1024x512_1_1_0_0_n_n none A Wt (constant (F := Ideal) S1024x512 .f32 0x00000000#32) (ix2 p e)
      = ∑ d : Fin 512, A (ix2 p d) * Wt (ix2 e d) := by
  refine (Ideal.matmul_constant_zero_apply dot_S1024x512_S512x512_S1024x512_1_1_0_0_n_n none A Wt (ix2 p e)).trans ?_
  rw [← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p e) ((contrEquiv1 dot_S1024x512_S512x512_S1024x512_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x512_S1024x512_1_1_0_0_n_n.rhsIdx (ix2 p e) ((contrEquiv1 dot_S1024x512_S512x512_S1024x512_1_1_0_0_n_n 512 rfl rfl).symm k) = ix2 e k := funext fun a => Fin.ext (by
    match a with
    | ⟨0, _⟩ => exact rhs_axis0 _ _
    | ⟨1, _⟩ => exact (rhs_axis1 _ _).trans hk)
  rw [el, er]

/-- What the body stores for the queries, at row `p` of the block and feature `e`: the narrowings are the identity on
    the extended reals, the product is the sum above, and the one-row bias is read at its feature. -/
theorem queries_payload_at (v0 : Vec Ideal S1024x512 .f32) (v3 : Vec Ideal S512x512 .f32) (v8 : Vec Ideal S1x512 .f32) (p : Fin 1024) (e : Fin 512) :
    k0_pay2 (F := Ideal) v0 v3 v8 (ix2 p e) = (∑ d : Fin 512, v0 (ix2 p d) * v3 (ix2 e d)) + v8 (ix2 0 e) := by
  have hx : shapeCast S1024x512 v0 shapeCasts_S1024x512_S1024x512 = v0 := shapeCast_self v0 _
  have hb : shapeCast S1x512 v8 shapeCasts_S1x512_S1x512 = v8 := shapeCast_self v8 _
  unfold k0_pay2 k0_pay1
  show matmul dot_S1024x512_S512x512_S1024x512_1_1_0_0_n_n none
        (truncf .bf16 (shapeCast S1024x512 v0 shapeCasts_S1024x512_S1024x512) bitsLt_bf16_f32) (truncf .bf16 v3 bitsLt_bf16_f32)
        (constant (F := Ideal) S1024x512 .f32 0x00000000#32) (ix2 p e)
      + broadcastTo S1024x512 (shapeCast S1x512 v8 shapeCasts_S1x512_S1x512) broadcasts_S1x512_S1024x512 (ix2 p e) = _
  rw [hx, hb]
  exact congrArg₂ (· + ·) (product_at (truncf .bf16 v0 bitsLt_bf16_f32) (truncf .bf16 v3 bitsLt_bf16_f32) p e)
    (broadcastTo_1b_ab_apply v8 broadcasts_S1x512_S1024x512 p e)

/-- What the body stores for the keys: the same with the keys' weight and bias. -/
theorem keys_payload_at (v0 : Vec Ideal S1024x512 .f32) (v5 : Vec Ideal S512x512 .f32) (v13 : Vec Ideal S1x512 .f32) (p : Fin 1024) (e : Fin 512) :
    k0_pay3 (F := Ideal) v0 v5 v13 (ix2 p e) = (∑ d : Fin 512, v0 (ix2 p d) * v5 (ix2 e d)) + v13 (ix2 0 e) := by
  have hx : shapeCast S1024x512 v0 shapeCasts_S1024x512_S1024x512 = v0 := shapeCast_self v0 _
  have hb : shapeCast S1x512 v13 shapeCasts_S1x512_S1x512 = v13 := shapeCast_self v13 _
  unfold k0_pay3 k0_pay1
  show matmul dot_S1024x512_S512x512_S1024x512_1_1_0_0_n_n none
        (truncf .bf16 (shapeCast S1024x512 v0 shapeCasts_S1024x512_S1024x512) bitsLt_bf16_f32) (truncf .bf16 v5 bitsLt_bf16_f32)
        (constant (F := Ideal) S1024x512 .f32 0x00000000#32) (ix2 p e)
      + broadcastTo S1024x512 (shapeCast S1x512 v13 shapeCasts_S1x512_S1x512) broadcasts_S1x512_S1024x512 (ix2 p e) = _
  rw [hx, hb]
  exact congrArg₂ (· + ·) (product_at (truncf .bf16 v0 bitsLt_bf16_f32) (truncf .bf16 v5 bitsLt_bf16_f32) p e)
    (broadcastTo_1b_ab_apply v13 broadcasts_S1x512_S1024x512 p e)

/-! ## Where each window's block sits -/

/-- The block indices, decided over the eight points: the activations' and the two outputs' blocks move down the rows
    with the point, the weights' and the biases' stay at the one block that is their whole array. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row `p` of point `t`'s activation block is row `1024 t + p` of the activations. -/
theorem act_block_apply (c : Dev nD) (t : Fin cfg0.N) (y : S1024x512.Idx) (k : S8192x512.Idx)
    (hk0 : (k 0).val = 1024 * t.val + (y 0).val) (hk1 : (k 1).val = (y 1).val) :
    (iblk0 (F := Ideal) V c 0 t : Vec Ideal S1024x512 .f32) y = (V c main_v0 : S8192x512.Idx → EReal) k := by
  obtain ⟨e0, e1, -, -, -, -, -, -, -, -, -, -, -, -⟩ := block_indices t
  unfold iblk0
  rw [View.read_apply]
  show V c main_v0 _ = V c main_v0 _
  congr 1
  funext a
  apply Fin.ext
  match a with
  | ⟨0, _⟩ => show win0_0.index t 0 * 1024 + 1 * (y 0).val = (k 0).val; rw [e0, hk0]; omega
  | ⟨1, _⟩ => show win0_0.index t 1 * 512 + 1 * (y 1).val = (k 1).val; rw [e1, hk1]; omega

/-- The queries' weight block at every point is the whole weight matrix. -/
theorem block1_eq (c : Dev nD) (t : Fin cfg0.N) :
    (iblk0 (F := Ideal) V c 1 t : Vec Ideal S512x512 .f32) = (V c main_arg1 : S512x512.Idx → EReal) := by
  obtain ⟨-, -, e0, e1, -, -, -, -, -, -, -, -, -, -⟩ := block_indices t
  funext y
  unfold iblk0
  rw [View.read_apply]
  show V c main_arg1 _ = V c main_arg1 y
  congr 1
  funext a
  apply Fin.ext
  match a with
  | ⟨0, _⟩ => show win0_1.index t 0 * 512 + 1 * (y 0).val = (y 0).val; rw [e0]; omega
  | ⟨1, _⟩ => show win0_1.index t 1 * 512 + 1 * (y 1).val = (y 1).val; rw [e1]; omega

/-- The queries' bias block at every point is the whole one-row bias. -/
theorem block2_eq (c : Dev nD) (t : Fin cfg0.N) :
    (iblk0 (F := Ideal) V c 2 t : Vec Ideal S1x512 .f32) = (V c main_v1 : S1x512.Idx → EReal) := by
  obtain ⟨-, -, -, -, e0, e1, -, -, -, -, -, -, -, -⟩ := block_indices t
  funext y
  unfold iblk0
  rw [View.read_apply]
  show V c main_v1 _ = V c main_v1 y
  congr 1
  funext a
  apply Fin.ext
  match a with
  | ⟨0, _⟩ => show win0_2.index t 0 * 1 + 1 * (y 0).val = (y 0).val; rw [e0]; omega
  | ⟨1, _⟩ => show win0_2.index t 1 * 512 + 1 * (y 1).val = (y 1).val; rw [e1]; omega

/-- The keys' weight block at every point is the whole weight matrix. -/
theorem block3_eq (c : Dev nD) (t : Fin cfg0.N) :
    (iblk0 (F := Ideal) V c 3 t : Vec Ideal S512x512 .f32) = (V c main_arg3 : S512x512.Idx → EReal) := by
  obtain ⟨-, -, -, -, -, -, e0, e1, -, -, -, -, -, -⟩ := block_indices t
  funext y
  unfold iblk0
  rw [View.read_apply]
  show V c main_arg3 _ = V c main_arg3 y
  congr 1
  funext a
  apply Fin.ext
  match a with
  | ⟨0, _⟩ => show win0_3.index t 0 * 512 + 1 * (y 0).val = (y 0).val; rw [e0]; omega
  | ⟨1, _⟩ => show win0_3.index t 1 * 512 + 1 * (y 1).val = (y 1).val; rw [e1]; omega

/-- The keys' bias block at every point is the whole one-row bias. -/
theorem block4_eq (c : Dev nD) (t : Fin cfg0.N) :
    (iblk0 (F := Ideal) V c 4 t : Vec Ideal S1x512 .f32) = (V c main_v2 : S1x512.Idx → EReal) := by
  obtain ⟨-, -, -, -, -, -, -, -, e0, e1, -, -, -, -⟩ := block_indices t
  funext y
  unfold iblk0
  rw [View.read_apply]
  show V c main_v2 _ = V c main_v2 y
  congr 1
  funext a
  apply Fin.ext
  match a with
  | ⟨0, _⟩ => show win0_4.index t 0 * 1 + 1 * (y 0).val = (y 0).val; rw [e0]; omega
  | ⟨1, _⟩ => show win0_4.index t 1 * 512 + 1 * (y 1).val = (y 1).val; rw [e1]; omega

/-! ## The queries array -/

/-- Row `p`, feature `e` of what a point stores for the queries, when its activation block is rows `1024 n + p` of `X`:
    the entry of `rowsProj` at row `1024 n + p`. -/
theorem queries_block_at (X : S8192x512.Idx → EReal) (W : S512x512.Idx → EReal) (B : S1x512.Idx → EReal)
    (x0 : Vec Ideal S1024x512 .f32) (n : Nat)
    (h0 : ∀ (y : S1024x512.Idx) (k : S8192x512.Idx), (k 0).val = 1024 * n + (y 0).val → (k 1).val = (y 1).val → x0 y = X k)
    (j : S1024x512.Idx) (i : S8192x512.Idx) (hi0 : (i 0).val = 1024 * n + (j 0).val) (hi1 : (i 1).val = (j 1).val) :
    k0_pay2 (F := Ideal) x0 W B j = rowsProj X W B i := by
  obtain ⟨p, e, rfl⟩ : ∃ (p : Fin 1024) (e : Fin 512), j = ix2 p e := ⟨j 0, j 1, eq_ix2 j⟩
  obtain ⟨r, e', rfl⟩ : ∃ (r : Fin 8192) (e' : Fin 512), i = ix2 r e' := ⟨i 0, i 1, eq_ix2 i⟩
  obtain rfl : e' = e := Fin.ext hi1
  refine (queries_payload_at x0 W B p e').trans ?_
  show _ = (∑ d : Fin 512, X (ix2 r d) * W (ix2 e' d)) + B (ix2 0 e')
  refine congrArg (· + B (ix2 0 e')) (Finset.sum_congr rfl fun d _ => ?_)
  rw [h0 (ix2 p d) (ix2 r d) hi0 rfl]

/-- What point `t` writes back to the queries array is block `t` of `rowsProj` of the arrays the region is entered at. -/
theorem queries_flushed (c : Dev nD) (t : Fin cfg0.N) :
    (dat0 (F := Ideal) V c).flushed 5 t
      = ((cfg0.win 5).blk t).view.read (Elt Ideal) (rowsProj (V c main_v0) (V c main_arg1) (V c main_v1)) := by
  show (cfg0.win 5).cut (grid0.coords t) ((dat0 (F := Ideal) V c).after 5 t) = _
  rw [after0_5]
  unfold out0_5
  rw [View.canon_unit_zero zero_offsets]
  simp only [View.ld_unit_zero (S := S1024x512) zero_offsets, View.ld_unit_zero (S := S512x512) zero_offsets,
    View.ld_unit_zero (S := S1x512) zero_offsets]
  rw [block1_eq V c t, block2_eq V c t]
  obtain ⟨-, -, -, -, -, -, -, -, -, -, e0, e1, -, -⟩ := block_indices t
  funext j
  show k0_pay2 (F := Ideal) (iblk0 (F := Ideal) V c 0 t) (V c main_arg1) (V c main_v1) j
    = rowsProj (V c main_v0) (V c main_arg1) (V c main_v1) (((cfg0.win 5).blk t).view.emb j)
  refine queries_block_at (V c main_v0) (V c main_arg1) (V c main_v1) (iblk0 (F := Ideal) V c 0 t) t.val
    (fun y k h0 h1 => act_block_apply V c t y k h0 h1) j _ ?_ ?_
  · show win0_5.index t 0 * 1024 + 1 * (j 0).val = 1024 * t.val + (j 0).val
    rw [e0]; omega
  · show win0_5.index t 1 * 512 + 1 * (j 1).val = (j 1).val
    rw [e1]; omega

/-- A row of the queries array is in point `t`'s block iff each coordinate is in the block's range on its axis. -/
theorem mem_queries_block (t : Fin cfg0.N) (i : S8192x512.Idx) :
    i ∈ ((cfg0.win 5).blk t).view.set
      ↔ ∀ a : Fin 2, win0_5.index t a * S1024x512.size a ≤ (i a).val ∧ (i a).val < win0_5.index t a * S1024x512.size a + S1024x512.size a := by
  show i ∈ ((View.whole main_v3_0).slice (win0_5.rect t)).set ↔ _
  rw [View.set_slice_whole, Rect.mem_set_unit]
  exact Iff.rfl

/-- Every row is in some point's block: row `r` in point `r / 1024`'s. -/
theorem queries_cover (i : S8192x512.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, Nat.lt_of_lt_of_eq (by omega) N_0.symm⟩, rfl⟩
  obtain ⟨-, -, -, -, -, -, -, -, -, -, e0, e1, -, -⟩ := block_indices t
  refine ⟨t, flush0_5 t, ?_⟩
  rw [mem_queries_block]
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 512 ≤ (i 1).val ∧ (i 1).val < win0_5.index t 1 * 512 + 512
    rw [e1]; omega

/-- The query array after the region: output window 5's write-backs folded over the grid. -/
theorem queries_array (c : Dev nD) :
    (dat0 (F := Ideal) V c).arrAt 5 cfg0.N = rowsProj (V c main_v0) (V c main_arg1) (V c main_v1) :=
  (dat0 (F := Ideal) V c).arrAt_eq_of_cover 5 (rowsProj (V c main_v0) (V c main_arg1) (V c main_v1))
    (fun t _ => queries_flushed V c t) queries_cover

/-! ## The keys array -/

/-- Row `p`, feature `e` of what a point stores for the keys, when its activation block is rows `1024 n + p` of `X`:
    the entry of `rowsProj` at row `1024 n + p`. -/
theorem keys_block_at (X : S8192x512.Idx → EReal) (W : S512x512.Idx → EReal) (B : S1x512.Idx → EReal)
    (x0 : Vec Ideal S1024x512 .f32) (n : Nat)
    (h0 : ∀ (y : S1024x512.Idx) (k : S8192x512.Idx), (k 0).val = 1024 * n + (y 0).val → (k 1).val = (y 1).val → x0 y = X k)
    (j : S1024x512.Idx) (i : S8192x512.Idx) (hi0 : (i 0).val = 1024 * n + (j 0).val) (hi1 : (i 1).val = (j 1).val) :
    k0_pay3 (F := Ideal) x0 W B j = rowsProj X W B i := by
  obtain ⟨p, e, rfl⟩ : ∃ (p : Fin 1024) (e : Fin 512), j = ix2 p e := ⟨j 0, j 1, eq_ix2 j⟩
  obtain ⟨r, e', rfl⟩ : ∃ (r : Fin 8192) (e' : Fin 512), i = ix2 r e' := ⟨i 0, i 1, eq_ix2 i⟩
  obtain rfl : e' = e := Fin.ext hi1
  refine (keys_payload_at x0 W B p e').trans ?_
  show _ = (∑ d : Fin 512, X (ix2 r d) * W (ix2 e' d)) + B (ix2 0 e')
  refine congrArg (· + B (ix2 0 e')) (Finset.sum_congr rfl fun d _ => ?_)
  rw [h0 (ix2 p d) (ix2 r d) hi0 rfl]

/-- What point `t` writes back to the keys array is block `t` of `rowsProj` of the arrays the region is entered at. -/
theorem keys_flushed (c : Dev nD) (t : Fin cfg0.N) :
    (dat0 (F := Ideal) V c).flushed 6 t
      = ((cfg0.win 6).blk t).view.read (Elt Ideal) (rowsProj (V c main_v0) (V c main_arg3) (V c main_v2)) := by
  show (cfg0.win 6).cut (grid0.coords t) ((dat0 (F := Ideal) V c).after 6 t) = _
  rw [after0_6]
  unfold out0_6
  rw [View.canon_unit_zero zero_offsets]
  simp only [View.ld_unit_zero (S := S1024x512) zero_offsets, View.ld_unit_zero (S := S512x512) zero_offsets,
    View.ld_unit_zero (S := S1x512) zero_offsets]
  rw [block3_eq V c t, block4_eq V c t]
  obtain ⟨-, -, -, -, -, -, -, -, -, -, -, -, e0, e1⟩ := block_indices t
  funext j
  show k0_pay3 (F := Ideal) (iblk0 (F := Ideal) V c 0 t) (V c main_arg3) (V c main_v2) j
    = rowsProj (V c main_v0) (V c main_arg3) (V c main_v2) (((cfg0.win 6).blk t).view.emb j)
  refine keys_block_at (V c main_v0) (V c main_arg3) (V c main_v2) (iblk0 (F := Ideal) V c 0 t) t.val
    (fun y k h0 h1 => act_block_apply V c t y k h0 h1) j _ ?_ ?_
  · show win0_6.index t 0 * 1024 + 1 * (j 0).val = 1024 * t.val + (j 0).val
    rw [e0]; omega
  · show win0_6.index t 1 * 512 + 1 * (j 1).val = (j 1).val
    rw [e1]; omega

/-- A row of the keys array is in point `t`'s block iff each coordinate is in the block's range on its axis. -/
theorem mem_keys_block (t : Fin cfg0.N) (i : S8192x512.Idx) :
    i ∈ ((cfg0.win 6).blk t).view.set
      ↔ ∀ a : Fin 2, win0_6.index t a * S1024x512.size a ≤ (i a).val ∧ (i a).val < win0_6.index t a * S1024x512.size a + S1024x512.size a := by
  show i ∈ ((View.whole main_v3_1).slice (win0_6.rect t)).set ↔ _
  rw [View.set_slice_whole, Rect.mem_set_unit]
  exact Iff.rfl

/-- Every row is in some point's block: row `r` in point `r / 1024`'s. -/
theorem keys_cover (i : S8192x512.Idx) :
    ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, Nat.lt_of_lt_of_eq (by omega) N_0.symm⟩, rfl⟩
  obtain ⟨-, -, -, -, -, -, -, -, -, -, -, -, e0, e1⟩ := block_indices t
  refine ⟨t, flush0_6 t, ?_⟩
  rw [mem_keys_block]
  intro a
  match a with
  | ⟨0, _⟩ =>
    show win0_6.index t 0 * 1024 ≤ (i 0).val ∧ (i 0).val < win0_6.index t 0 * 1024 + 1024
    rw [e0, ht]; omega
  | ⟨1, _⟩ =>
    show win0_6.index t 1 * 512 ≤ (i 1).val ∧ (i 1).val < win0_6.index t 1 * 512 + 512
    rw [e1]; omega

/-- The key array after the region: output window 6's write-backs folded over the grid. -/
theorem keys_array (c : Dev nD) :
    (dat0 (F := Ideal) V c).arrAt 6 cfg0.N = rowsProj (V c main_v0) (V c main_arg3) (V c main_v2) :=
  (dat0 (F := Ideal) V c).arrAt_eq_of_cover 6 (rowsProj (V c main_v0) (V c main_arg3) (V c main_v2))
    (fun t _ => keys_flushed V c t) keys_cover

end Cert.KernelIdeal.ProjectionRegion

end
-- ==== Proof.AttentionBlock.lean ====
/-
  One grid point of the attention region as a value: the body's result block, 256 query rows by 128 features (two heads
  side by side), read at row `r` and column `cl`, is the once-divided row attention of the head that column lies in —
  the query row's 64 features of that head against the 4096 key rows' 64 features of that head, at feature `cl mod 64`.
  Stated over the two loaded blocks as variables; nothing here knows where in the arrays the blocks come from.
-/
import proofs.«408210_j8821862826069_3_alg».proof.Proof.Gen.KernelIdeal.Skeleton
import proofs.«408210_j8821862826069_3_alg».proof.Proof.AttentionSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttentionBlock

open Cert.KernelIdeal Cert.KernelIdeal.Gen Idealize.ShloMosaic Idealize.ShloMosaic.ValueIdx

/-- Among a block's 128 columns, feature `e` of the head (first or second of the pair) that column `cl` lies in. -/
def bandCol (cl : Fin 128) (e : Fin 64) : Fin 128 := ⟨64 * (cl.val / 64) + e.val, by omega⟩
/-- The place of column `cl` inside its head. -/
def bandFt (cl : Fin 128) : Fin 64 := ⟨cl.val % 64, by omega⟩

/-! ## One head's computation, over a block of query rows and a band of key rows -/

/-- The scaled scores of 256 query rows against 4096 key rows of one head. -/
def scores (q : FVec Ideal S256x64 .bf16) (k : FVec Ideal S4096x64 .bf16) : FVec Ideal S256x4096 .f32 :=
  mulf (matmul dot_S256x64_S4096x64_S256x4096_1_1_0_0_n_n none q k (constant (F := Ideal) S256x4096 .f32 0x00000000#32))
    (broadcast S256x4096 (Scalar.ofBits (F := Ideal) .f32 0x3D3504F3#32))

/-- Every row's largest score. -/
def rowTop (q : FVec Ideal S256x64 .bf16) (k : FVec Ideal S4096x64 .bf16) : FVec Ideal S256 .f32 :=
  multiReduction (F := Ideal) .maximumf [1] S256 (scores q k) 0xFF800000#32 reduces_S256x4096_S256 (.inl rfl) rfl

/-- The exponential of every score less its row's largest. -/
def weights (q : FVec Ideal S256x64 .bf16) (k : FVec Ideal S4096x64 .bf16) : FVec Ideal S256x4096 .f32 :=
  exp (subf (scores q k)
    (broadcastTo S256x4096 (shapeCast S256x1 (rowTop q k) shapeCasts_S256_S256x1) broadcasts_S256x1_S256x4096))

/-- Every row's sum of weights. -/
def rowSum (q : FVec Ideal S256x64 .bf16) (k : FVec Ideal S4096x64 .bf16) : FVec Ideal S256 .f32 :=
  multiReduction (F := Ideal) .add [1] S256 (weights q k) 0x00000000#32 reduces_S256x4096_S256 (.inl rfl) rfl

/-- The weighted sum of the key rows, divided by the row's sum of weights. -/
def half (q : FVec Ideal S256x64 .bf16) (k : FVec Ideal S4096x64 .bf16) : FVec Ideal S256x64 .f32 :=
  divf (matmul dot_S256x4096_S4096x64_S256x64_1_0_0_1_n_n none (truncf .bf16 (weights q k) bitsLt_bf16_f32) k
      (constant (F := Ideal) S256x64 .f32 0x00000000#32))
    (broadcastTo S256x64 (shapeCast S256x1 (rowSum q k) shapeCasts_S256_S256x1) broadcasts_S256x1_S256x64)

/-- The body's result block is the two heads' halves side by side, each from its 64 columns of the two loaded blocks. -/
theorem pay2_eq (v0 : FVec Ideal S1x256x128 .bf16) (v2 : FVec Ideal S1x4096x128 .bf16) :
    k1_pay2 (F := Ideal) v0 v2
      = concatenate S256x128 1
          [⟨S256x64, half
              (extractStridedSlice S256x64 ![0, 0] (shapeCast S256x128 v0 shapeCasts_S1x256x128_S256x128) slices_S256x128_o0_0_S256x64)
              (extractStridedSlice S4096x64 ![0, 0] (shapeCast S4096x128 v2 shapeCasts_S1x4096x128_S4096x128) slices_S4096x128_o0_0_S4096x64)⟩,
           ⟨S256x64, half
              (extractStridedSlice S256x64 ![0, 64] (shapeCast S256x128 v0 shapeCasts_S1x256x128_S256x128) slices_S256x128_o0_64_S256x64)
              (extractStridedSlice S4096x64 ![0, 64] (shapeCast S4096x128 v2 shapeCasts_S1x4096x128_S4096x128) slices_S4096x128_o0_64_S4096x64)⟩]
          concatenates_S256x64_S256x64_S256x128_d1 := rfl

/-! ## The two products read at an index

The scores contract the 64 features of a query row with those of a key row; the weighted sum contracts the 4096 key rows.
For each dimension record: which coordinate of the result index, or of the contraction index, each operand axis reads. -/

theorem lhs_qk_0 (i : S256x4096.Idx) (c : dot_S256x64_S4096x64_S256x4096_1_1_0_0_n_n.contr.Idx) :
    (dot_S256x64_S4096x64_S256x4096_1_1_0_0_n_n.lhsIdx i c 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem lhs_qk_1 (i : S256x4096.Idx) (c : dot_S256x64_S4096x64_S256x4096_1_1_0_0_n_n.contr.Idx) :
    (dot_S256x64_S4096x64_S256x4096_1_1_0_0_n_n.lhsIdx i c 1).val = (c ⟨0, by decide⟩).val :=
  dot_S256x64_S4096x64_S256x4096_1_1_0_0_n_n.lhsIdx_val_of_single rfl i c
theorem rhs_qk_0 (i : S256x4096.Idx) (c : dot_S256x64_S4096x64_S256x4096_1_1_0_0_n_n.contr.Idx) :
    (dot_S256x64_S4096x64_S256x4096_1_1_0_0_n_n.rhsIdx i c 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem rhs_qk_1 (i : S256x4096.Idx) (c : dot_S256x64_S4096x64_S256x4096_1_1_0_0_n_n.contr.Idx) :
    (dot_S256x64_S4096x64_S256x4096_1_1_0_0_n_n.rhsIdx i c 1).val = (c ⟨0, by decide⟩).val :=
  dot_S256x64_S4096x64_S256x4096_1_1_0_0_n_n.rhsIdx_val_of_single rfl i c

/-- The product of a query block with a key band, at (r, j): row r of the one against row j of the other. -/
theorem scores_mm_apply (q : FVec Ideal S256x64 .bf16) (k : FVec Ideal S4096x64 .bf16) (r : Fin 256) (j : Fin 4096) :
    matmul dot_S256x64_S4096x64_S256x4096_1_1_0_0_n_n none q k (constant (F := Ideal) S256x4096 .f32 0x00000000#32) (ix2 r j)
      = ∑ e : Fin 64, q (ix2 r e) * k (ix2 j e) := by
  simp only [matmul]
  rw [Ideal.matmul_constant_zero_apply, ← Equiv.sum_comp (contrEquiv1 dot_S256x64_S4096x64_S256x4096_1_1_0_0_n_n 64 rfl rfl).symm]
  refine Finset.sum_congr rfl fun e _ => ?_
  have hk := contrEquiv1_symm_val dot_S256x64_S4096x64_S256x4096_1_1_0_0_n_n 64 rfl rfl e
  have el : dot_S256x64_S4096x64_S256x4096_1_1_0_0_n_n.lhsIdx (ix2 r j) ((contrEquiv1 dot_S256x64_S4096x64_S256x4096_1_1_0_0_n_n 64 rfl rfl).symm e) = ix2 r e := funext fun a => Fin.ext (by
    match a with
    | ⟨0, _⟩ => exact lhs_qk_0 _ _
    | ⟨1, _⟩ => exact (lhs_qk_1 _ _).trans hk)
  have er : dot_S256x64_S4096x64_S256x4096_1_1_0_0_n_n.rhsIdx (ix2 r j) ((contrEquiv1 dot_S256x64_S4096x64_S256x4096_1_1_0_0_n_n 64 rfl rfl).symm e) = ix2 j e := funext fun a => Fin.ext (by
    match a with
    | ⟨0, _⟩ => exact rhs_qk_0 _ _
    | ⟨1, _⟩ => exact (rhs_qk_1 _ _).trans hk)
  rw [el, er]

theorem lhs_wk_0 (i : S256x64.Idx) (c : dot_S256x4096_S4096x64_S256x64_1_0_0_1_n_n.contr.Idx) :
    (dot_S256x4096_S4096x64_S256x64_1_0_0_1_n_n.lhsIdx i c 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhs_wk_1 (i : S256x64.Idx) (c : dot_S256x4096_S4096x64_S256x64_1_0_0_1_n_n.contr.Idx) :
    (dot_S256x4096_S4096x64_S256x64_1_0_0_1_n_n.lhsIdx i c 1).val = (c ⟨0, by decide⟩).val :=
  dot_S256x4096_S4096x64_S256x64_1_0_0_1_n_n.lhsIdx_val_of_single rfl i c
theorem rhs_wk_0 (i : S256x64.Idx) (c : dot_S256x4096_S4096x64_S256x64_1_0_0_1_n_n.contr.Idx) :
    (dot_S256x4096_S4096x64_S256x64_1_0_0_1_n_n.rhsIdx i c 0).val = (c ⟨0, by decide⟩).val :=
  dot_S256x4096_S4096x64_S256x64_1_0_0_1_n_n.rhsIdx_val_of_single rfl i c
theorem rhs_wk_1 (i : S256x64.Idx) (c : dot_S256x4096_S4096x64_S256x64_1_0_0_1_n_n.contr.Idx) :
    (dot_S256x4096_S4096x64_S256x64_1_0_0_1_n_n.rhsIdx i c 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The product of a block of weights with a key band, at (r, e): row r of the weights against column e of the keys. -/
theorem out_mm_apply (w : FVec Ideal S256x4096 .bf16) (k : FVec Ideal S4096x64 .bf16) (r : Fin 256) (e : Fin 64) :
    matmul dot_S256x4096_S4096x64_S256x64_1_0_0_1_n_n none w k (constant (F := Ideal) S256x64 .f32 0x00000000#32) (ix2 r e)
      = ∑ j : Fin 4096, w (ix2 r j) * k (ix2 j e) := by
  simp only [matmul]
  rw [Ideal.matmul_constant_zero_apply, ← Equiv.sum_comp (contrEquiv1 dot_S256x4096_S4096x64_S256x64_1_0_0_1_n_n 4096 rfl rfl).symm]
  refine Finset.sum_congr rfl fun j _ => ?_
  have hk := contrEquiv1_symm_val dot_S256x4096_S4096x64_S256x64_1_0_0_1_n_n 4096 rfl rfl j
  have el : dot_S256x4096_S4096x64_S256x64_1_0_0_1_n_n.lhsIdx (ix2 r e) ((contrEquiv1 dot_S256x4096_S4096x64_S256x64_1_0_0_1_n_n 4096 rfl rfl).symm j) = ix2 r j := funext fun a => Fin.ext (by
    match a with
    | ⟨0, _⟩ => exact lhs_wk_0 _ _
    | ⟨1, _⟩ => exact (lhs_wk_1 _ _).trans hk)
  have er : dot_S256x4096_S4096x64_S256x64_1_0_0_1_n_n.rhsIdx (ix2 r e) ((contrEquiv1 dot_S256x4096_S4096x64_S256x64_1_0_0_1_n_n 4096 rfl rfl).symm j) = ix2 j e := funext fun a => Fin.ext (by
    match a with
    | ⟨0, _⟩ => exact (rhs_wk_0 _ _).trans hk
    | ⟨1, _⟩ => exact rhs_wk_1 _ _)
  rw [el, er]

/-! ## The row reductions and the column broadcasts read at an index -/

/-- The index of a 256 × 4096 block over row r with coordinate j put back on the reduced axis is (r, j). -/
theorem lift_row (r : Fin 256) (j : Fin 4096) : reduces_S256x4096_S256.lift (ix1 r) j = ix2 r j :=
  funext fun a => Fin.ext (by
    match a with
    | ⟨0, _⟩ => rfl
    | ⟨1, _⟩ => rfl)

/-- A vector cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (i, c), the column at (i, 0). -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A score at (r, j): the query row r against the key row j, scaled. -/
theorem scores_apply (q : FVec Ideal S256x64 .bf16) (k : FVec Ideal S4096x64 .bf16) (r : Fin 256) (j : Fin 4096) :
    scores q k (ix2 r j) = (∑ e : Fin 64, q (ix2 r e) * k (ix2 j e)) * Ideal.ofBits .f32 0x3D3504F3#32 :=
  congrArg (· * Ideal.ofBits .f32 0x3D3504F3#32) (scores_mm_apply q k r j)

/-- A row's largest score: the fold of max over the row from the pattern of minus infinity. -/
theorem rowTop_apply (q : FVec Ideal S256x64 .bf16) (k : FVec Ideal S4096x64 .bf16) (r : Fin 256) :
    rowTop q k (ix1 r)
      = (Finset.univ : Finset (Fin 4096)).fold max (Ideal.ofBits .f32 0xFF800000#32) (fun j => scores q k (ix2 r j)) := by
  have e : (scores q k ∘ reduces_S256x4096_S256.lift (ix1 r)) = fun j : Fin 4096 => scores q k (ix2 r j) :=
    funext fun j => congrArg (scores q k) (lift_row r j)
  unfold rowTop
  refine (Ideal.multiReduction_maximumf_single (scores q k) 0xFF800000#32 reduces_S256x4096_S256 (.inl rfl) rfl (ix1 r)).trans ?_
  rw [e]
  rfl

/-- A weight at (r, j): the exponential of the score less the row's largest. -/
theorem weights_apply (q : FVec Ideal S256x64 .bf16) (k : FVec Ideal S4096x64 .bf16) (r : Fin 256) (j : Fin 4096) :
    weights q k (ix2 r j) = Ideal.exp (scores q k (ix2 r j) - rowTop q k (ix1 r)) := by
  unfold weights
  show Ideal.exp (scores q k (ix2 r j)
    - broadcastTo S256x4096 (shapeCast S256x1 (rowTop q k) shapeCasts_S256_S256x1) broadcasts_S256x1_S256x4096 (ix2 r j)) = _
  rw [broadcastTo_a1_ab_apply, shapeCast_a_a1_apply]

/-- A row's sum of weights. -/
theorem rowSum_apply (q : FVec Ideal S256x64 .bf16) (k : FVec Ideal S4096x64 .bf16) (r : Fin 256) :
    rowSum q k (ix1 r) = ∑ j : Fin 4096, weights q k (ix2 r j) := by
  unfold rowSum
  refine (Ideal.multiReduction_add_single (weights q k) 0x00000000#32 reduces_S256x4096_S256 (.inl rfl) rfl (ix1 r)).trans ?_
  exact Finset.sum_congr rfl fun j _ => congrArg (weights q k) (lift_row r j)

/-- The head's result at (r, e): the weighted sum of the keys' feature e over the row's sum of weights. -/
theorem half_apply (q : FVec Ideal S256x64 .bf16) (k : FVec Ideal S4096x64 .bf16) (r : Fin 256) (e : Fin 64) :
    half q k (ix2 r e)
      = Ideal.div (∑ j : Fin 4096, weights q k (ix2 r j) * k (ix2 j e)) (∑ j : Fin 4096, weights q k (ix2 r j)) := by
  unfold half
  rw [divf_apply, broadcastTo_a1_ab_apply, shapeCast_a_a1_apply, rowSum_apply, out_mm_apply]
  rfl

/-! ## The head's result is the specification's row attention -/

section Spec
variable (q : FVec Ideal S256x64 .bf16) (k : FVec Ideal S4096x64 .bf16) (r : Fin 256)

theorem scores_spec (j : Fin 4096) :
    scores q k (ix2 r j) = Cert.Attention.rowScore (fun e => q (ix2 r e)) (fun j e => k (ix2 j e)) j := by
  rw [scores_apply]; rfl

theorem rowTop_spec : rowTop q k (ix1 r) = Cert.Attention.rowMax (fun e => q (ix2 r e)) (fun j e => k (ix2 j e)) := by
  rw [rowTop_apply, funext (scores_spec q k r)]; rfl

theorem weights_spec (j : Fin 4096) :
    weights q k (ix2 r j) = Cert.Attention.rowWgt (fun e => q (ix2 r e)) (fun j e => k (ix2 j e)) j := by
  rw [weights_apply, scores_spec, rowTop_spec]; rfl

theorem half_spec (e : Fin 64) :
    half q k (ix2 r e) = Cert.Attention.rowOutK (fun e => q (ix2 r e)) (fun j e => k (ix2 j e)) e := by
  simp only [half_apply, weights_spec]; rfl

end Spec

/-! ## The loaded blocks' columns, and the block at an index -/

/-- A 64-column cut of the query block, at (r, e), is the loaded block at (0, r, c), c the cut's offset plus e. -/
theorem qcut_apply (v0 : FVec Ideal S1x256x128 .bf16) (o : Nat) (h : S256x128.Slices ![0, o] S256x64) (r : Fin 256) (e : Fin 64)
    (c : Fin 128) (hc : c.val = o + e.val) :
    extractStridedSlice S256x64 ![0, o] (shapeCast S256x128 v0 shapeCasts_S1x256x128_S256x128) h (ix2 r e) = v0 (ix3 0 r c) :=
  (slice2_axis1_apply o _ h r e c hc).trans (shapeCast_1ab_ab_apply v0 shapeCasts_S1x256x128_S256x128 r c)

/-- A 64-column cut of the key band, at (j, e), is the loaded band at (0, j, c), c the cut's offset plus e. -/
theorem kcut_apply (v2 : FVec Ideal S1x4096x128 .bf16) (o : Nat) (h : S4096x128.Slices ![0, o] S4096x64) (j : Fin 4096) (e : Fin 64)
    (c : Fin 128) (hc : c.val = o + e.val) :
    extractStridedSlice S4096x64 ![0, o] (shapeCast S4096x128 v2 shapeCasts_S1x4096x128_S4096x128) h (ix2 j e) = v2 (ix3 0 j c) :=
  (slice2_axis1_apply o _ h j e c hc).trans (shapeCast_1ab_ab_apply v2 shapeCasts_S1x4096x128_S4096x128 j c)

/-- The body's stored block at (0, r, cl), from the loaded query block `v0` and key band `v2`. -/
theorem block_value (v0 : FVec Ideal S1x256x128 .bf16) (v2 : FVec Ideal S1x4096x128 .bf16) (r : Fin 256) (cl : Fin 128) :
    k1_pay1 (F := Ideal) (k1_pay2 v0 v2) (ix3 0 r cl)
      = Cert.Attention.rowOutK (fun e => v0 (ix3 0 r (bandCol cl e))) (fun j e => v2 (ix3 0 j (bandCol cl e))) (bandFt cl) := by
  unfold k1_pay1
  rw [pay2_eq]
  refine (shapeCast_ab_1ab_apply _ shapeCasts_S256x128_S1x256x128 0 r cl).trans ?_
  by_cases hc : cl.val < 64
  · -- the column lies in the first head of the pair
    refine (concatenate_pair_apply_left (t := S256x128) (s₁ := S256x64) (s₂ := S256x64) (1 : Fin 2) _ _ concatenates_S256x64_S256x64_S256x128_d1 (ix2 r cl) rfl
      (ix2 r (⟨cl.val, hc⟩ : Fin 64)) (fun b => match b with | ⟨0, _⟩ => rfl | ⟨1, _⟩ => rfl)).trans ?_
    rw [half_spec]
    have hq : (fun e : Fin 64 => extractStridedSlice S256x64 ![0, 0] (shapeCast S256x128 v0 shapeCasts_S1x256x128_S256x128)
          slices_S256x128_o0_0_S256x64 (ix2 r e)) = fun e => v0 (ix3 0 r (bandCol cl e)) :=
      funext fun e => qcut_apply v0 0 _ r e (bandCol cl e) (by simp only [bandCol]; omega)
    have hk : (fun (j : Fin 4096) (e : Fin 64) => extractStridedSlice S4096x64 ![0, 0]
          (shapeCast S4096x128 v2 shapeCasts_S1x4096x128_S4096x128) slices_S4096x128_o0_0_S4096x64 (ix2 j e))
        = fun j e => v2 (ix3 0 j (bandCol cl e)) :=
      funext fun j => funext fun e => kcut_apply v2 0 _ j e (bandCol cl e) (by simp only [bandCol]; omega)
    have hf : (⟨cl.val, hc⟩ : Fin 64) = bandFt cl := Fin.ext (by simp only [bandFt]; omega)
    rw [hq, hk, hf]
  · -- the column lies in the second head of the pair
    have hlt : cl.val - 64 < 64 := by have := cl.isLt; omega
    refine (concatenate_pair_apply_right (t := S256x128) (s₁ := S256x64) (s₂ := S256x64) (1 : Fin 2) _ _ concatenates_S256x64_S256x64_S256x128_d1 (ix2 r cl) rfl rfl
      (ix2 r (⟨cl.val - 64, hlt⟩ : Fin 64))
      (fun b hb => match b, hb with
        | ⟨0, _⟩, _ => rfl
        | ⟨1, _⟩, hb => absurd (Fin.ext rfl) hb)
      (by show (cl.val - 64) + 64 = cl.val; omega)).trans ?_
    rw [half_spec]
    have hq : (fun e : Fin 64 => extractStridedSlice S256x64 ![0, 64] (shapeCast S256x128 v0 shapeCasts_S1x256x128_S256x128)
          slices_S256x128_o0_64_S256x64 (ix2 r e)) = fun e => v0 (ix3 0 r (bandCol cl e)) :=
      funext fun e => qcut_apply v0 64 _ r e (bandCol cl e) (by simp only [bandCol]; have := cl.isLt; omega)
    have hk : (fun (j : Fin 4096) (e : Fin 64) => extractStridedSlice S4096x64 ![0, 64]
          (shapeCast S4096x128 v2 shapeCasts_S1x4096x128_S4096x128) slices_S4096x128_o0_64_S4096x64 (ix2 j e))
        = fun j e => v2 (ix3 0 j (bandCol cl e)) :=
      funext fun j => funext fun e => kcut_apply v2 64 _ j e (bandCol cl e) (by simp only [bandCol]; have := cl.isLt; omega)
    have hf : (⟨cl.val - 64, hlt⟩ : Fin 64) = bandFt cl := Fin.ext (by simp only [bandFt]; have := cl.isLt; omega)
    rw [hq, hk, hf]

end Cert.KernelIdeal.AttentionBlock

end
-- ==== Proof.AttentionRegion.lean ====
/-
  The second region of the idealized kernel (the attention) as values: each grid point (batch, head pair, block of 256
  query rows) reads its 256 × 128 block of the query array and the whole 4096 × 128 column band of the key array for that
  batch and head pair, computes the two heads' row attentions in the once-divided form, and writes the 256 × 128 block of
  the result. Over the whole grid the result array ends holding `Attention.outK` of the two arrays the region is entered
  with, at every (batch, position, feature).
-/
import proofs.«408210_j8821862826069_3_alg».proof.Proof.Gen.KernelIdeal.Frame
import proofs.«408210_j8821862826069_3_alg».proof.Proof.AttentionSpec
import proofs.«408210_j8821862826069_3_alg».proof.Proof.AttentionBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttentionRegion

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The body's loads and its store start at the corner of their buffers. -/
theorem zero_offsets : (![0, 0, 0] : Fin 3 → Nat) = fun _ => 0 := funext fun a => by fin_cases a <;> rfl

/-- The three windows' block indices at a grid point, each against the result's (batch, row block, head pair): the
    query block is the result's block; the key band has the result's batch and head pair and is the one block of its
    4096 rows; and the result's block index stays below (2, 16, 4). Decided over the 128 points. -/
theorem window_indices : ∀ t : Fin cfg1.N,
    win1_0.index t (0 : Fin 3) = win1_2.index t (0 : Fin 3)
  ∧ win1_0.index t (1 : Fin 3) = win1_2.index t (1 : Fin 3)
  ∧ win1_0.index t (2 : Fin 3) = win1_2.index t (2 : Fin 3)
  ∧ win1_1.index t (0 : Fin 3) = win1_2.index t (0 : Fin 3)
  ∧ win1_1.index t (1 : Fin 3) = 0
  ∧ win1_1.index t (2 : Fin 3) = win1_2.index t (2 : Fin 3)
  ∧ win1_2.index t (0 : Fin 3) ≤ 1 ∧ win1_2.index t (1 : Fin 3) ≤ 15 ∧ win1_2.index t (2 : Fin 3) ≤ 3 :=
  (by decide +kernel : ∀ t : Fin grid1.N, _)

/-- Every (batch, row block, head pair) is the result's block index at some grid point. Decided over the 128 blocks. -/
theorem block_point : ∀ (q0 : Fin 2) (q1 : Fin 16) (q2 : Fin 4), ∃ t : Fin cfg1.N,
    win1_2.index t (0 : Fin 3) = q0.val ∧ win1_2.index t (1 : Fin 3) = q1.val ∧ win1_2.index t (2 : Fin 3) = q2.val :=
  (by decide +kernel : ∀ (q0 : Fin 2) (q1 : Fin 16) (q2 : Fin 4), ∃ t : Fin grid1.N,
    win1_2.index t (0 : Fin 3) = q0.val ∧ win1_2.index t (1 : Fin 3) = q1.val ∧ win1_2.index t (2 : Fin 3) = q2.val)

/-- The query block at a point, at row `r` and column `cl`, is the query array at the point's batch, row
    256 · (row block) + r and feature 128 · (head pair) + cl: a block's coordinate is its index times its size plus the
    coordinate inside it. -/
theorem query_block_at (c : Dev nD) (t : Fin cfg1.N) (r : Fin 256) (cl : Fin 128) (k : S2x4096x512.Idx)
    (h0 : (k 0).val = win1_2.index t (0 : Fin 3)) (h1 : (k 1).val = 256 * win1_2.index t (1 : Fin 3) + r.val)
    (h2 : (k 2).val = 128 * win1_2.index t (2 : Fin 3) + cl.val) :
    (iblk1 V c 0 t : Vec Ideal S1x256x128 .bf16) (ix3 0 r cl) = (V c main_v4 : S2x4096x512.Idx → EReal) k := by
  obtain ⟨e0, e1, e2, -⟩ := window_indices t
  unfold iblk1
  rw [View.read_apply]
  show V c main_v4 _ = V c main_v4 _
  congr 1
  funext a
  apply Fin.ext
  match a with
  | ⟨0, _⟩ => show win1_0.index t (0 : Fin 3) * 1 + 1 * 0 = (k 0).val; rw [e0, h0]; omega
  | ⟨1, _⟩ => show win1_0.index t (1 : Fin 3) * 256 + 1 * r.val = (k 1).val; rw [e1, h1]; omega
  | ⟨2, _⟩ => show win1_0.index t (2 : Fin 3) * 128 + 1 * cl.val = (k 2).val; rw [e2, h2]; omega

/-- The key band at a point, at row `j` and column `cl`, is the key array at the point's batch, row `j` and feature
    128 · (head pair) + cl: the band holds all 4096 rows. -/
theorem key_band_at (c : Dev nD) (t : Fin cfg1.N) (j : Fin 4096) (cl : Fin 128) (k : S2x4096x512.Idx)
    (h0 : (k 0).val = win1_2.index t (0 : Fin 3)) (h1 : (k 1).val = j.val)
    (h2 : (k 2).val = 128 * win1_2.index t (2 : Fin 3) + cl.val) :
    (iblk1 V c 1 t : Vec Ideal S1x4096x128 .bf16) (ix3 0 j cl) = (V c main_v5 : S2x4096x512.Idx → EReal) k := by
  obtain ⟨-, -, -, e0, e1, e2, -⟩ := window_indices t
  unfold iblk1
  rw [View.read_apply]
  show V c main_v5 _ = V c main_v5 _
  congr 1
  funext a
  apply Fin.ext
  match a with
  | ⟨0, _⟩ => show win1_1.index t (0 : Fin 3) * 1 + 1 * 0 = (k 0).val; rw [e0, h0]; omega
  | ⟨1, _⟩ => show win1_1.index t (1 : Fin 3) * 4096 + 1 * j.val = (k 1).val; rw [e1, h1]; omega
  | ⟨2, _⟩ => show win1_1.index t (2 : Fin 3) * 128 + 1 * cl.val = (k 2).val; rw [e2, h2]; omega

/-- The array the region must leave: the once-divided attention of the two arrays it is entered with. -/
abbrev attention (c : Dev nD) : Cert.Attention.Act :=
  Cert.Attention.ofCoords (Cert.Attention.outK (fun b n f => V c main_v4 (ix3 b n f)) (fun b n f => V c main_v5 (ix3 b n f)))

/-- What the body stores at row `r` and column `cl` of its block is the attention at the batch, position and feature
    that place has in the array. Feature f = 128 · (head pair) + cl lies in head 2 · (head pair) + cl / 64, whose feature
    `e` is array feature 128 · (head pair) + 64 · (cl / 64) + e — the block's column for `e` in the head `cl` lies in —, and
    f's place inside its head is cl mod 64. So the block's query row and key rows of that head are the arrays' head row
    and head keys, and the two row attentions agree argument by argument. -/
theorem block_attention (c : Dev nD) (t : Fin cfg1.N) (r : Fin 256) (cl : Fin 128) (b : Fin 2) (n : Fin 4096) (f : Fin 512)
    (h0 : b.val = win1_2.index t (0 : Fin 3)) (h1 : n.val = 256 * win1_2.index t (1 : Fin 3) + r.val)
    (h2 : f.val = 128 * win1_2.index t (2 : Fin 3) + cl.val) :
    k1_pay1 (F := Ideal) (k1_pay2 (iblk1 V c 0 t) (iblk1 V c 1 t)) (ix3 0 r cl)
      = Cert.Attention.outK (fun b n f => V c main_v4 (ix3 b n f)) (fun b n f => V c main_v5 (ix3 b n f)) b n f := by
  refine (AttentionBlock.block_value (iblk1 V c 0 t) (iblk1 V c 1 t) r cl).trans ?_
  unfold Cert.Attention.outK
  have hq : (fun e => (iblk1 V c 0 t : Vec Ideal S1x256x128 .bf16) (ix3 0 r (AttentionBlock.bandCol cl e)))
      = Cert.Attention.headRow (fun b n f => V c main_v4 (ix3 b n f)) b (Cert.Attention.hd f) n := funext fun e => by
    refine (query_block_at V c t r (AttentionBlock.bandCol cl e) (ix3 b n (Cert.Attention.hcol (Cert.Attention.hd f) e)) h0 h1 ?_).trans rfl
    show (Cert.Attention.hcol (Cert.Attention.hd f) e).val = 128 * win1_2.index t (2 : Fin 3) + (AttentionBlock.bandCol cl e).val
    simp only [Cert.Attention.hcol, Cert.Attention.hd, AttentionBlock.bandCol]
    have := cl.isLt; have := e.isLt
    omega
  have hk : (fun j e => (iblk1 V c 1 t : Vec Ideal S1x4096x128 .bf16) (ix3 0 j (AttentionBlock.bandCol cl e)))
      = Cert.Attention.headKeys (fun b n f => V c main_v5 (ix3 b n f)) b (Cert.Attention.hd f) := funext fun j => funext fun e => by
    refine (key_band_at V c t j (AttentionBlock.bandCol cl e) (ix3 b j (Cert.Attention.hcol (Cert.Attention.hd f) e)) h0 rfl ?_).trans rfl
    show (Cert.Attention.hcol (Cert.Attention.hd f) e).val = 128 * win1_2.index t (2 : Fin 3) + (AttentionBlock.bandCol cl e).val
    simp only [Cert.Attention.hcol, Cert.Attention.hd, AttentionBlock.bandCol]
    have := cl.isLt; have := e.isLt
    omega
  have hf : AttentionBlock.bandFt cl = Cert.Attention.ft f := Fin.ext (by
    simp only [AttentionBlock.bandFt, Cert.Attention.ft]
    have := cl.isLt
    omega)
  rw [hq, hk, hf]

/-- The same at any index `y` of the block and any index `k` of the array with the block's coordinates: each is the index
    of its three coordinates, and the block's leading coordinate is 0. -/
theorem block_attention_at (c : Dev nD) (t : Fin cfg1.N) (y : S1x256x128.Idx) (k : S2x4096x512.Idx)
    (h0 : (k 0).val = win1_2.index t (0 : Fin 3)) (h1 : (k 1).val = 256 * win1_2.index t (1 : Fin 3) + (y 1).val)
    (h2 : (k 2).val = 128 * win1_2.index t (2 : Fin 3) + (y 2).val) :
    k1_pay1 (F := Ideal) (k1_pay2 (iblk1 V c 0 t) (iblk1 V c 1 t)) y = attention V c k := by
  have hy : y = ix3 (0 : Fin 1) (⟨(y 1).val, (y 1).isLt⟩ : Fin 256) (⟨(y 2).val, (y 2).isLt⟩ : Fin 128) := by
    funext a
    match a with
    | ⟨0, _⟩ => exact Fin.ext (by have : (y 0).val < 1 := (y 0).isLt; show (y 0).val = 0; omega)
    | ⟨1, _⟩ => rfl
    | ⟨2, _⟩ => rfl
  have hk : k = ix3 (⟨(k 0).val, (k 0).isLt⟩ : Fin 2) (⟨(k 1).val, (k 1).isLt⟩ : Fin 4096) (⟨(k 2).val, (k 2).isLt⟩ : Fin 512) := by
    funext a
    match a with
    | ⟨0, _⟩ => rfl
    | ⟨1, _⟩ => rfl
    | ⟨2, _⟩ => rfl
  rw [hy, hk]
  exact (block_attention V c t _ _ _ _ _ h0 h1 h2).trans rfl

/-- What a grid point writes back is its block of `attention`: the body's one store fills its whole buffer with the
    value computed from the two whole loaded blocks, and that value is the attention at each place of the block. -/
theorem written_block (c : Dev nD) (t : Fin cfg1.N) :
    (dat1 (F := Ideal) V c).flushed 2 t = ((cfg1.win 2).blk t).view.read (Elt Ideal) (attention V c) := by
  show (cfg1.win 2).cut (grid1.coords t) ((dat1 (F := Ideal) V c).after 2 t) = _
  rw [after1_2]
  unfold out1_2
  rw [View.canon_unit_zero zero_offsets]
  simp only [View.ld_unit_zero (S := S1x256x128) zero_offsets, View.ld_unit_zero (S := S1x4096x128) zero_offsets]
  funext y
  rw [View.read_apply]
  have hy0 : (y 0).val < 1 := (y 0).isLt
  refine block_attention_at V c t y (((cfg1.win 2).blk t).view.emb y) ?_ ?_ ?_
  · show win1_2.index t (0 : Fin 3) * 1 + 1 * (y 0).val = win1_2.index t (0 : Fin 3); omega
  · show win1_2.index t (1 : Fin 3) * 256 + 1 * (y 1).val = 256 * win1_2.index t (1 : Fin 3) + (y 1).val; omega
  · show win1_2.index t (2 : Fin 3) * 128 + 1 * (y 2).val = 128 * win1_2.index t (2 : Fin 3) + (y 2).val; omega

/-- The result array after the region: output window 2's write-backs folded over the grid. Every point writes its
    block back, and index (b, n, f) lies in the block (b, n / 256, f / 128), which is some point's; so the blocks cover
    the array and it ends holding `attention`. -/
theorem result_array (c : Dev nD) :
    (dat1 (F := Ideal) V c).arrAt 2 cfg1.N
      = Cert.Attention.ofCoords (Cert.Attention.outK (fun b n f => V c main_v4 (ix3 b n f)) (fun b n f => V c main_v5 (ix3 b n f))) :=
  (dat1 (F := Ideal) V c).arrAt_eq_of_cover 2 (attention V c) (fun t _ => written_block V c t) fun i => by
    have hi0 : (i 0).val < 2 := (i 0).isLt
    have hi1 : (i 1).val < 4096 := (i 1).isLt
    have hi2 : (i 2).val < 512 := (i 2).isLt
    obtain ⟨t, q0, q1, q2⟩ := block_point ⟨(i 0).val, hi0⟩ ⟨(i 1).val / 256, by omega⟩ ⟨(i 2).val / 128, by omega⟩
    refine ⟨t, flush1_2 t, ?_⟩
    show i ∈ ((View.whole main_v6).slice (win1_2.rect t)).set
    rw [View.set_slice_whole, Rect.mem_set_unit]
    intro a
    match a with
    | ⟨0, _⟩ => show win1_2.index t (0 : Fin 3) * 1 ≤ (i 0).val ∧ (i 0).val < win1_2.index t (0 : Fin 3) * 1 + 1
                rw [q0]; show (i 0).val * 1 ≤ (i 0).val ∧ (i 0).val < (i 0).val * 1 + 1; omega
    | ⟨1, _⟩ => show win1_2.index t (1 : Fin 3) * 256 ≤ (i 1).val ∧ (i 1).val < win1_2.index t (1 : Fin 3) * 256 + 256
                rw [q1]; show (i 1).val / 256 * 256 ≤ (i 1).val ∧ (i 1).val < (i 1).val / 256 * 256 + 256; omega
    | ⟨2, _⟩ => show win1_2.index t (2 : Fin 3) * 128 ≤ (i 2).val ∧ (i 2).val < win1_2.index t (2 : Fin 3) * 128 + 128
                rw [q2]; show (i 2).val / 128 * 128 ≤ (i 2).val ∧ (i 2).val < (i 2).val / 128 * 128 + 128; omega

end Cert.KernelIdeal.AttentionRegion

end
-- ==== Proof.KernelValue.lean ====
/-
  The idealized kernel's result array as a function of its five arguments.
  @main reshapes the activations to 8192 rows and the two biases to one row each, runs the projection region (queries and
  keys, each 8192 × 512), reshapes both back to [2, 4096, 512], and runs the attention region. Reading the boundary
  contents back through those steps: the array the attention region is entered with, at (b, n, f), is the projection
  region's output at row 4096 b + n and feature f, which is the linear layer `Attention.proj` of the arguments at (b, n, f)
  — a reshape only renames positions, and row-major position is kept. So the result is `Attention.resultK` of the arguments.
-/
import proofs.«408210_j8821862826069_3_alg».proof.Proof.KernelRun
import proofs.«408210_j8821862826069_3_alg».proof.Proof.ProjectionRegion
import proofs.«408210_j8821862826069_3_alg».proof.Proof.AttentionRegion
import Idealize.ShloMosaic.Lib.StableHlo.Run
import Idealize.ShloMosaic.Lib.Pipeline.Value
import Idealize.ShloMosaic.Lib.ValueIdx

set_option maxRecDepth 16384

noncomputable section

namespace Cert.KernelIdeal.ResultValue

open Cert.KernelIdeal Cert.KernelIdeal.Gen Idealize.ShloMosaic Idealize.ShloMosaic.ValueIdx Idealize.ShloMosaic.TcCoe Idealize.SL.Sem
open Cert.KernelIdeal.ProjectionRegion

/-! ## A linear layer through the two reshapes -/

/-- The projection of the activations viewed as 8192 rows, viewed again as [2, 4096, 512], is the linear layer at
    (b, n, f): position (b, n, ·) is row 4096 b + n, and the one-row bias at (0, f) is the bias vector at f. -/
theorem reshaped_rowsProj (x : S2x4096x512.Idx → EReal) (W : S512x512.Idx → EReal) (β : S512.Idx → EReal)
    (h1 : S2x4096x512.ShapeCasts S8192x512) (h2 : S512.ShapeCasts S1x512) (h3 : S8192x512.ShapeCasts S2x4096x512)
    (b : Fin 2) (n : Fin 4096) (f : Fin 512) :
    shapeCast S2x4096x512 (rowsProj (shapeCast S8192x512 x h1) W (shapeCast S1x512 β h2)) h3 (ix3 b n f)
      = Cert.Attention.proj x W β b n f := by
  have hr : 4096 * b.val + n.val < 8192 := by have := b.isLt; have := n.isLt; omega
  rw [shapeCast_apply _ h3 (ix3 b n f) (ix2 ⟨4096 * b.val + n.val, hr⟩ f)
    (by rw [Shape.rowMajor_val_two, Shape.rowMajor_val_three]; show (4096 * b.val + n.val) * 512 + f.val = (b.val * 4096 + n.val) * 512 + f.val; omega)]
  unfold rowsProj Cert.Attention.proj
  show (∑ d : Fin 512, shapeCast S8192x512 x h1 (ix2 ⟨4096 * b.val + n.val, hr⟩ d) * W (ix2 f d)) + shapeCast S1x512 β h2 (ix2 0 f) = _
  rw [shapeCast_apply _ h2 (ix2 0 f) (ix1 f)
    (by rw [Shape.rowMajor_val_one, Shape.rowMajor_val_two]; show f.val = 0 * 512 + f.val; omega)]
  refine congrArg (· + β (ix1 f)) (Finset.sum_congr rfl fun d _ => ?_)
  rw [shapeCast_apply _ h1 (ix2 ⟨4096 * b.val + n.val, hr⟩ d) (ix3 b n d)
    (by rw [Shape.rowMajor_val_two, Shape.rowMajor_val_three]; show (b.val * 4096 + n.val) * 512 + d.val = (4096 * b.val + n.val) * 512 + d.val; omega)]

variable (m : (ℓ : Loc nD τ sig) → Buf (Elt Ideal) ℓ) (ρ : Dev nD → PrngReg)

/-! ## What the projection region is entered with -/

theorem entry0_x (c : Dev nD) : V1 m ρ c main_v0
    = shapeCast S8192x512 (m ((c : Thread nD τ).loc main_arg0)) shapeCasts_S2x4096x512_S8192x512 := by
  show StableHlo.after hostOps0 (W0 m ρ c) (Proc.devRef .tc main_v0) = _
  after_results
  rfl
theorem entry0_βq (c : Dev nD) : V1 m ρ c main_v1
    = shapeCast S1x512 (m ((c : Thread nD τ).loc main_arg2)) shapeCasts_S512_S1x512 := by
  show StableHlo.after hostOps0 (W0 m ρ c) (Proc.devRef .tc main_v1) = _
  after_results
  rfl
theorem entry0_βk (c : Dev nD) : V1 m ρ c main_v2
    = shapeCast S1x512 (m ((c : Thread nD τ).loc main_arg4)) shapeCasts_S512_S1x512 := by
  show StableHlo.after hostOps0 (W0 m ρ c) (Proc.devRef .tc main_v2) = _
  after_results
  rfl
theorem entry0_Wq (c : Dev nD) : V1 m ρ c main_arg1 = m ((c : Thread nD τ).loc main_arg1) := by
  show StableHlo.after hostOps0 (W0 m ρ c) (Proc.devRef .tc main_arg1) = _
  after_results
theorem entry0_Wk (c : Dev nD) : V1 m ρ c main_arg3 = m ((c : Thread nD τ).loc main_arg3) := by
  show StableHlo.after hostOps0 (W0 m ρ c) (Proc.devRef .tc main_arg3) = _
  after_results

/-! ## What the attention region is entered with -/

theorem entry1_q (c : Dev nD) : V3 m ρ c main_v4
    = shapeCast S2x4096x512 (W2 m ρ c (Proc.devRef .tc main_v3_0)) shapeCasts_S8192x512_S2x4096x512 := by
  show StableHlo.after hostOps1 (W2 m ρ c) (Proc.devRef .tc main_v4) = _
  after_results
  rfl
theorem entry1_k (c : Dev nD) : V3 m ρ c main_v5
    = shapeCast S2x4096x512 (W2 m ρ c (Proc.devRef .tc main_v3_1)) shapeCasts_S8192x512_S2x4096x512 := by
  show StableHlo.after hostOps1 (W2 m ρ c) (Proc.devRef .tc main_v5) = _
  after_results
  rfl

/-- The query array the attention region reads is the query layer of the arguments, coordinate by coordinate. -/
theorem queries_coords (c : Dev nD) :
    (fun (b : Fin 2) (n : Fin 4096) (f : Fin 512) => V3 m ρ c main_v4 (ix3 b n f))
      = Cert.Attention.proj (m ((c : Thread nD τ).loc main_arg0)) (m ((c : Thread nD τ).loc main_arg1)) (m ((c : Thread nD τ).loc main_arg2)) := by
  funext b n f
  rw [entry1_q, show W2 m ρ c (Proc.devRef .tc main_v3_0) = _ from W2_arr m ρ c 5, queries_array, entry0_x, entry0_βq, entry0_Wq]
  exact reshaped_rowsProj _ _ _ _ _ _ b n f

/-- The key array the attention region reads is the key layer of the arguments, coordinate by coordinate. -/
theorem keys_coords (c : Dev nD) :
    (fun (b : Fin 2) (n : Fin 4096) (f : Fin 512) => V3 m ρ c main_v5 (ix3 b n f))
      = Cert.Attention.proj (m ((c : Thread nD τ).loc main_arg0)) (m ((c : Thread nD τ).loc main_arg3)) (m ((c : Thread nD τ).loc main_arg4)) := by
  funext b n f
  rw [entry1_k, show W2 m ρ c (Proc.devRef .tc main_v3_1) = _ from W2_arr m ρ c 6, keys_array, entry0_x, entry0_βk, entry0_Wk]
  exact reshaped_rowsProj _ _ _ _ _ _ b n f

/-! ## The result -/

/-- The last boundary's contents at the result array: the once-divided attention of the two linear layers. -/
theorem result_eq (c : Dev nD) : W4 m ρ c (Proc.devRef .tc main_v6)
    = Cert.Attention.resultK (m ((c : Thread nD τ).loc main_arg0)) (m ((c : Thread nD τ).loc main_arg1)) (m ((c : Thread nD τ).loc main_arg2))
        (m ((c : Thread nD τ).loc main_arg3)) (m ((c : Thread nD τ).loc main_arg4)) := by
  refine (show W4 m ρ c (Proc.devRef .tc main_v6) = _ from W4_arr m ρ c 2).trans ?_
  rw [Cert.KernelIdeal.AttentionRegion.result_array, queries_coords, keys_coords]
  rfl

/-- The run with the result named: every weakly fair execution terminates, the result array at `Attention.resultK` of the
    arguments, the arguments as launched. -/
theorem run : θ_run defs (onTc (τ := τ) (main (F := Ideal))) ⟨m, fun _ => 0, ρ⟩ (fun r => ∀ c : Dev nD,
      r.2.mem ((c.tc : Thread nD τ).loc main_v6)
        = Cert.Attention.resultK (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ c), (h c).2⟩)
    (Cert.KernelIdeal.ValueRun.run_result (F := Ideal) m ρ)

end Cert.KernelIdeal.ResultValue

end
-- ==== Proof.ReferenceValue.lean ====
/-
  The reference's result as a function of its arguments: the last stage of its run, read one operation at a time down to
  the arguments, is `Attention.resultR` — two linear layers, the heads' scores scaled, the row maximum subtracted, the
  exponentials divided by their row sum, and the weighted sum of the keys, with features regrouped as 8 heads of 64.
-/
import proofs.«408210_j8821862826069_3_alg».proof.Proof.Gen.ReferenceIdeal.Read
import proofs.«408210_j8821862826069_3_alg».proof.Proof.AttentionSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem

section Stages

open Cert.Attention

variable (x0 : (⟨S2x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal))

/-! ## The two linear layers -/

/-- The queries' layer at (b, n, c): row (b, n) of the activations against row c of the weights, plus the bias at c. -/
theorem v3_at (b : Fin 2) (n : Fin 4096) (c : Fin 512) :
    val_main_v3 (F := Ideal) x0 x1 x2 (ix3 b n c) = proj x0 x1 x2 b n c := by
  rw [val_main_v3_apply, val_main_v0_apply, val_main_v2_apply, val_main_v1_apply]
  have e1 : ∀ k : Fin 512, lidx_main_v0 (ix3 b n c) k = ix3 b n k := fun k => funext fun a => Fin.ext (by
    match a with | ⟨0, _⟩ => rfl | ⟨1, _⟩ => rfl | ⟨2, _⟩ => rfl)
  have e2 : ∀ k : Fin 512, ridx_main_v0 (ix3 b n c) k = ix2 c k := fun k => funext fun a => Fin.ext (by
    match a with | ⟨0, _⟩ => rfl | ⟨1, _⟩ => rfl)
  have e3 : idx_main_v1 (idx_main_v2 (ix3 b n c)) = ix1 c := funext fun a => Fin.ext (by
    match a with | ⟨0, _⟩ => rfl)
  simp only [e1, e2, e3]
  rfl

/-- The keys' layer at (b, n, c), likewise. -/
theorem v9_at (b : Fin 2) (n : Fin 4096) (c : Fin 512) :
    val_main_v9 (F := Ideal) x0 x3 x4 (ix3 b n c) = proj x0 x3 x4 b n c := by
  rw [val_main_v9_apply, val_main_v6_apply, val_main_v8_apply, val_main_v7_apply]
  have e1 : ∀ k : Fin 512, lidx_main_v6 (ix3 b n c) k = ix3 b n k := fun k => funext fun a => Fin.ext (by
    match a with | ⟨0, _⟩ => rfl | ⟨1, _⟩ => rfl | ⟨2, _⟩ => rfl)
  have e2 : ∀ k : Fin 512, ridx_main_v6 (ix3 b n c) k = ix2 c k := fun k => funext fun a => Fin.ext (by
    match a with | ⟨0, _⟩ => rfl | ⟨1, _⟩ => rfl)
  have e3 : idx_main_v7 (idx_main_v8 (ix3 b n c)) = ix1 c := funext fun a => Fin.ext (by
    match a with | ⟨0, _⟩ => rfl)
  simp only [e1, e2, e3]
  rfl

/-! ## Regrouping the 512 features as 8 heads of 64 -/

/-- Entry (b, h, n, e) of the head-major array is entry (b, n, 64 h + e) of the flat one: the row-major position
    ((b · 4096 + n) · 8 + h) · 64 + e splits back as (b, n, 64 h + e) over extents (2, 4096, 512). -/
theorem idx_q (b : Fin 2) (h : Fin 8) (n : Fin 4096) (e : Fin 64) :
    idx_main_v4 (idx_main_v5 (ix4 b h n e)) = ix3 b n (hcol h e) := funext fun a => Fin.ext (by
  have hb := b.isLt; have hh := h.isLt; have hn := n.isLt; have he := e.isLt
  match a with
  | ⟨0, _⟩ => show (((b.val * 4096 + n.val) * 8 + h.val) * 64 + e.val) / 2097152 = b.val; omega
  | ⟨1, _⟩ => show (((b.val * 4096 + n.val) * 8 + h.val) * 64 + e.val) / 512 % 4096 = n.val; omega
  | ⟨2, _⟩ => show (((b.val * 4096 + n.val) * 8 + h.val) * 64 + e.val) % 512 = 64 * h.val + e.val; omega)

theorem idx_k (b : Fin 2) (h : Fin 8) (n : Fin 4096) (e : Fin 64) :
    idx_main_v10 (idx_main_v11 (ix4 b h n e)) = ix3 b n (hcol h e) := funext fun a => Fin.ext (by
  have hb := b.isLt; have hh := h.isLt; have hn := n.isLt; have he := e.isLt
  match a with
  | ⟨0, _⟩ => show (((b.val * 4096 + n.val) * 8 + h.val) * 64 + e.val) / 2097152 = b.val; omega
  | ⟨1, _⟩ => show (((b.val * 4096 + n.val) * 8 + h.val) * 64 + e.val) / 512 % 4096 = n.val; omega
  | ⟨2, _⟩ => show (((b.val * 4096 + n.val) * 8 + h.val) * 64 + e.val) % 512 = 64 * h.val + e.val; omega)

/-- Head h's feature e of query row (b, n). -/
theorem v5_at (b : Fin 2) (h : Fin 8) (n : Fin 4096) (e : Fin 64) :
    val_main_v5 (F := Ideal) x0 x1 x2 (ix4 b h n e) = proj x0 x1 x2 b n (hcol h e) := by
  rw [val_main_v5_apply, val_main_v4_apply, idx_q, v3_at]

/-- Head h's feature e of key row (b, n). -/
theorem v11_at (b : Fin 2) (h : Fin 8) (n : Fin 4096) (e : Fin 64) :
    val_main_v11 (F := Ideal) x0 x3 x4 (ix4 b h n e) = proj x0 x3 x4 b n (hcol h e) := by
  rw [val_main_v11_apply, val_main_v10_apply, idx_k, v9_at]

/-! ## Scores, row maximum, weights, denominator -/

/-- The scaled score of query row n against key row j in head (b, h). -/
theorem v14_at (b : Fin 2) (h : Fin 8) (n j : Fin 4096) :
    val_main_v14 (F := Ideal) x0 x1 x2 x3 x4 (ix4 b h n j)
      = rowScore (headRow (proj x0 x1 x2) b h n) (headKeys (proj x0 x3 x4) b h) j := by
  rw [val_main_v14_apply, val_main_v12_apply, val_main_v13_apply, val_main_cst_apply]
  have e1 : ∀ k : Fin 64, lidx_main_v12 (ix4 b h n j) k = ix4 b h n k := fun k => funext fun a => Fin.ext (by
    match a with | ⟨0, _⟩ => rfl | ⟨1, _⟩ => rfl | ⟨2, _⟩ => rfl | ⟨3, _⟩ => rfl)
  have e2 : ∀ k : Fin 64, ridx_main_v12 (ix4 b h n j) k = ix4 b h j k := fun k => funext fun a => Fin.ext (by
    match a with | ⟨0, _⟩ => rfl | ⟨1, _⟩ => rfl | ⟨2, _⟩ => rfl | ⟨3, _⟩ => rfl)
  simp only [e1, e2, v5_at, v11_at]
  rfl

/-- The reduction over the key axis with the maximum as its body, from the -∞ constant: the fold of `max` over the
    row's 4096 scores. -/
theorem v15_fold (b : Fin 2) (h : Fin 8) (n : Fin 4096) :
    val_main_v15 (F := Ideal) x0 x1 x2 x3 x4 (ix3 b h n)
      = (Finset.univ : Finset (Fin 4096)).fold max (Ideal.ofBits .f32 0xFF800000#32)
          (fun k => val_main_v14 (F := Ideal) x0 x1 x2 x3 x4 (ix4 b h n k)) := by
  unfold val_main_v15
  generalize val_main_v14 (F := Ideal) x0 x1 x2 x3 x4 = y0
  refine (Host.reduce_eq_fold_single (FloatOps.maximumf (F := Ideal) (φ := .f32)) y0 (val_main_cst_0 (F := Ideal))
    reducesTo_S2x8x4096x4096_S2x8x4096_d3 (by decide) h_S_ (ix3 b h n)).trans ?_
  show (Finset.univ : Finset (Fin 4096)).fold max (Ideal.ofBits .f32 0xFF800000#32) (y0 ∘ _) = _
  refine Finset.fold_congr fun k _ => ?_
  exact congrArg y0 (funext fun a => Fin.ext (by
    match a with | ⟨0, _⟩ => rfl | ⟨1, _⟩ => rfl | ⟨2, _⟩ => rfl | ⟨3, _⟩ => rfl))

theorem v15_at (b : Fin 2) (h : Fin 8) (n : Fin 4096) :
    val_main_v15 (F := Ideal) x0 x1 x2 x3 x4 (ix3 b h n)
      = rowMax (headRow (proj x0 x1 x2) b h n) (headKeys (proj x0 x3 x4) b h) := by
  rw [v15_fold]
  simp only [v14_at]
  rfl

/-- Taking the maximum with -∞ once more changes nothing: the fold already starts from -∞. -/
theorem v17_at (b : Fin 2) (h : Fin 8) (n : Fin 4096) :
    val_main_v17 (F := Ideal) x0 x1 x2 x3 x4 (ix3 b h n)
      = rowMax (headRow (proj x0 x1 x2) b h n) (headKeys (proj x0 x3 x4) b h) := by
  rw [val_main_v17_apply, val_main_v16_apply, val_main_cst_1_apply, v15_at]
  unfold rowMax
  show max (Ideal.ofBits .f32 0xFF800000#32) _ = _
  exact max_eq_right ((Finset.le_fold_max _).2 (Or.inl le_rfl))

/-- The exponential of a score less its row's maximum. -/
theorem v21_at (b : Fin 2) (h : Fin 8) (n j : Fin 4096) :
    val_main_v21 (F := Ideal) x0 x1 x2 x3 x4 (ix4 b h n j)
      = rowWgt (headRow (proj x0 x1 x2) b h n) (headKeys (proj x0 x3 x4) b h) j := by
  rw [val_main_v21_apply, val_main_v20_apply, val_main_v19_apply, val_main_v18_apply]
  have e : idx_main_v18 (idx_main_v19 (ix4 b h n j)) = ix3 b h n := funext fun a => Fin.ext (by
    match a with | ⟨0, _⟩ => rfl | ⟨1, _⟩ => rfl | ⟨2, _⟩ => rfl)
  rw [e, v17_at, v14_at]
  rfl

/-- The row's sum of weights; the sum starts from the zero constant. -/
theorem v22_at (b : Fin 2) (h : Fin 8) (n : Fin 4096) :
    val_main_v22 (F := Ideal) x0 x1 x2 x3 x4 (ix3 b h n)
      = rowDen (headRow (proj x0 x1 x2) b h n) (headKeys (proj x0 x3 x4) b h) := by
  rw [val_main_v22_apply, val_main_cst_2_apply]
  have e : ∀ k : Fin 4096, idx_main_v22 (ix3 b h n) k = ix4 b h n k := fun k => funext fun a => Fin.ext (by
    match a with | ⟨0, _⟩ => rfl | ⟨1, _⟩ => rfl | ⟨2, _⟩ => rfl | ⟨3, _⟩ => rfl)
  simp only [e, v21_at]
  show Ideal.ofBits .f32 0x00000000#32 + _ = _
  rw [Ideal.ofBits_zero_f32, zero_add]
  rfl

/-- Each weight over its row's sum. -/
theorem v25_at (b : Fin 2) (h : Fin 8) (n j : Fin 4096) :
    val_main_v25 (F := Ideal) x0 x1 x2 x3 x4 (ix4 b h n j)
      = Ideal.div (rowWgt (headRow (proj x0 x1 x2) b h n) (headKeys (proj x0 x3 x4) b h) j)
          (rowDen (headRow (proj x0 x1 x2) b h n) (headKeys (proj x0 x3 x4) b h)) := by
  rw [val_main_v25_apply, val_main_v24_apply, val_main_v23_apply]
  have e : idx_main_v23 (idx_main_v24 (ix4 b h n j)) = ix3 b h n := funext fun a => Fin.ext (by
    match a with | ⟨0, _⟩ => rfl | ⟨1, _⟩ => rfl | ⟨2, _⟩ => rfl)
  rw [e, v22_at, v21_at]
  rfl

/-! ## The weighted sum of the keys, and back to 512 features -/

theorem v26_at (b : Fin 2) (h : Fin 8) (n : Fin 4096) (e : Fin 64) :
    val_main_v26 (F := Ideal) x0 x1 x2 x3 x4 (ix4 b h n e)
      = rowOutR (headRow (proj x0 x1 x2) b h n) (headKeys (proj x0 x3 x4) b h) e := by
  rw [val_main_v26_apply]
  have e1 : ∀ k : Fin 4096, lidx_main_v26 (ix4 b h n e) k = ix4 b h n k := fun k => funext fun a => Fin.ext (by
    match a with | ⟨0, _⟩ => rfl | ⟨1, _⟩ => rfl | ⟨2, _⟩ => rfl | ⟨3, _⟩ => rfl)
  have e2 : ∀ k : Fin 4096, ridx_main_v26 (ix4 b h n e) k = ix4 b h k e := fun k => funext fun a => Fin.ext (by
    match a with | ⟨0, _⟩ => rfl | ⟨1, _⟩ => rfl | ⟨2, _⟩ => rfl | ⟨3, _⟩ => rfl)
  simp only [e1, e2, v25_at, v11_at]
  rfl

/-- Entry (b, n, c) of the flat result is entry (b, c / 64, n, c % 64) of the head-major one: the row-major position
    (b · 4096 + n) · 512 + c splits as (b, n, c / 64, c % 64) over extents (2, 4096, 8, 64). -/
theorem idx_out (b : Fin 2) (n : Fin 4096) (c : Fin 512) :
    idx_main_v27 (idx_main_v28 (ix3 b n c)) = ix4 b (hd c) n (ft c) := funext fun a => Fin.ext (by
  have hb := b.isLt; have hn := n.isLt; have hc := c.isLt
  match a with
  | ⟨0, _⟩ => show ((b.val * 4096 + n.val) * 512 + c.val) / 2097152 = b.val; omega
  | ⟨1, _⟩ => show ((b.val * 4096 + n.val) * 512 + c.val) / 64 % 8 = c.val / 64; omega
  | ⟨2, _⟩ => show ((b.val * 4096 + n.val) * 512 + c.val) / 512 % 4096 = n.val; omega
  | ⟨3, _⟩ => show ((b.val * 4096 + n.val) * 512 + c.val) % 64 = c.val % 64; omega)

theorem v28_at (b : Fin 2) (n : Fin 4096) (c : Fin 512) :
    val_main_v28 (F := Ideal) x0 x1 x2 x3 x4 (ix3 b n c) = outR (proj x0 x1 x2) (proj x0 x3 x4) b n c := by
  rw [val_main_v28_apply, val_main_v27_apply, idx_out, v26_at]
  rfl

end Stages

theorem reference_result (x0 : (⟨S2x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) :
    val_main_v28 x0 x1 x2 x3 x4 = Cert.Attention.resultR x0 x1 x2 x3 x4 :=
  Cert.Attention.eq_ofCoords fun b n c => v28_at x0 x1 x2 x3 x4 b n c

end Cert.ReferenceIdeal.RefValue

end
-- ==== Proof.lean ====
/-
  The certificate of a fused projection-and-attention kernel against its jnp reference, over the extended reals.

  Both programs compute, for activations x : [2, 4096, 512], queries q = x·Wqᵀ + βq and keys k = x·Wkᵀ + βk, and for each
  batch and each of eight heads of 64 features the softmax attention of the queries over all 4096 keys with the keys as
  values and the scores scaled by the literal 512^(-1/2). At the ideal values the roundings to bf16 are identities, the
  kernel's row tiling and head-pair packing are renamings of indices, and the one real difference is where the division by
  the softmax denominator sits: the kernel divides the weighted sum once, the reference divides every weight first.
  For finite inputs every entry is real and the denominator is a positive real, so the two agree (Proof/AttentionLaw.lean).

  The frames of the two kernel programs are the generated frame certificates; the reference's is its generated run with the
  result dropped. Nothing was rewritten by the idealization, so `preserves` is trivial. `algebraic`: the kernel's run ends
  with the result array at `Attention.resultK` of the arguments (Proof/KernelValue.lean over the two regions' values), the
  reference's at `Attention.resultR` of its arguments (Proof/ReferenceValue.lean over its generated run), the arguments
  agree, and the precondition makes them real (Proof/FiniteInputs.lean).
-/
import proofs.«408210_j8821862826069_3_alg».proof.Defs
import proofs.«408210_j8821862826069_3_alg».proof.Proof.Gen.Kernel
import proofs.«408210_j8821862826069_3_alg».proof.Proof.Gen.Kernel.Frame
import proofs.«408210_j8821862826069_3_alg».proof.Proof.Gen.KernelIdeal
import proofs.«408210_j8821862826069_3_alg».proof.Proof.Gen.KernelIdeal.Frame
import proofs.«408210_j8821862826069_3_alg».proof.Proof.Gen.ReferenceIdeal
import proofs.«408210_j8821862826069_3_alg».proof.Proof.Gen.ReferenceIdeal.Run
import proofs.«408210_j8821862826069_3_alg».proof.Proof.Gen.ReferenceIdeal.Read
import proofs.«408210_j8821862826069_3_alg».proof.Proof.Gen.Pre_finite_inputs
import proofs.«408210_j8821862826069_3_alg».proof.Proof.AttentionLaw
import proofs.«408210_j8821862826069_3_alg».proof.Proof.FiniteInputs
import proofs.«408210_j8821862826069_3_alg».proof.Proof.KernelValue
import proofs.«408210_j8821862826069_3_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both runs end with the result array at one function of them. -/
theorem algebraic : Cert.algebraic_KernelIdeal_ReferenceIdeal := by
  intro m ρ m' ρ' hpre hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4⟩ := Cert.Pre_finite_inputs.Reals.isReal_of_pre _ _ _ _ _ (hpre c)
  rw [Cert.ReferenceIdeal.Read.val_main_v28_eq, Cert.ReferenceIdeal.RefValue.reference_result,
    (hagree c).1, (hagree c).2.1, (hagree c).2.2.1, (hagree c).2.2.2.1, (hagree c).2.2.2.2]
  exact (Cert.Attention.resultK_eq_resultR _ _ _ _ _ r0 r1 r2 r3 r4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
